-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S2x8388608x3 : Shape := ⟨3, ![2, 8388608, 3]⟩
abbrev S2x256x3 : Shape := ⟨3, ![2, 256, 3]⟩
abbrev S1x8192x3 : Shape := ⟨3, ![1, 8192, 3]⟩
abbrev S1x256x3 : Shape := ⟨3, ![1, 256, 3]⟩
abbrev S8x256 : Shape := ⟨2, ![8, 256]⟩
abbrev S8192x3 : Shape := ⟨2, ![8192, 3]⟩
abbrev S8192x256 : Shape := ⟨2, ![8192, 256]⟩
abbrev S1x8192 : Shape := ⟨2, ![1, 8192]⟩
abbrev S8192x1 : Shape := ⟨2, ![8192, 1]⟩
abbrev S1x256 : Shape := ⟨2, ![1, 256]⟩
abbrev S3x256 : Shape := ⟨2, ![3, 256]⟩
abbrev S256x3 : Shape := ⟨2, ![256, 3]⟩
abbrev S3 : Shape := ⟨1, ![3]⟩
abbrev S1x3 : Shape := ⟨2, ![1, 3]⟩

abbrev nBuf : Space → Nat
  | .hbm => 4
  | .vmem => 7
  | .smem => 0
  | _ => 0

abbrev bufTy : (tb : Table) → Fin (tcTables nBuf tb) → BufTy
  | .hbm, ⟨0, _⟩ => ⟨S64x512x512x3, .f32⟩
  | .hbm, ⟨1, _⟩ => ⟨S2x8388608x3, .f32⟩
  | .hbm, ⟨2, _⟩ => ⟨S2x256x3, .f32⟩
  | .hbm, ⟨3, _⟩ => ⟨S256x3, .f32⟩
  | .local _ .vmem, ⟨0, _⟩ => ⟨S1x8192x3, .f32⟩
  | .local _ .vmem, ⟨1, _⟩ => ⟨S1x8192x3, .f32⟩
  | .local _ .vmem, ⟨2, _⟩ => ⟨S1x256x3, .f32⟩
  | .local _ .vmem, ⟨3, _⟩ => ⟨S1x256x3, .f32⟩
  | .local _ .vmem, ⟨4, _⟩ => ⟨S8x256, .f32⟩
  | .local _ .vmem, ⟨5, _⟩ => ⟨S2x256x3, .f32⟩
  | .local _ .vmem, ⟨6, _⟩ => ⟨S256x3, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨2, ![2, 1024], ![false, false]⟩

def k0_cond2 (i : grid0.Coords) : BitVec 1 :=
  let arg1 : BitVec 32 := BitVec.ofNat 32 (i 1).val
  let c1023_i32 : BitVec 32 := 1023#32
  let v54 : BitVec 1 := Scalar.cmpi .eq arg1 c1023_i32
  let v55 : BitVec 32 := Scalar.extui v54
  let c0_i32_18 : BitVec 32 := 0#32
  let v56 : BitVec 1 := Scalar.cmpi .ne v55 c0_i32_18
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S2x256x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  shapeCasts_S64x512x512x3_S2x8388608x3 : S64x512x512x3.ShapeCasts S2x8388608x3
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  iota_S8192x256_d1_w32 : S8192x256.Iotas .tc 32 [1]
  slices_S8192x3_o0_0_S8192x1 : S8192x3.Slices ![0, 0] S8192x1
  shapeCasts_S8192x1_S8192x1 : S8192x1.ShapeCasts S8192x1
  broadcasts_S8192x1_S8192x256 : S8192x1.Broadcasts S8192x256
  natLt_1_32 : 1 < 32
  bitsLt_bf16_f32 : FTy.bits .bf16 < FTy.bits .f32
  inb_S8x256_S1x256_0_0 : ∀ a, (![0, 0] : Fin 2 → Nat) a + S1x256.size a ≤ S8x256.size a
  h_S1x256 : 0 < S1x256.numel
  shapeCasts_S1x256_S1x256 : S1x256.ShapeCasts S1x256
  slices_S8192x3_o0_1_S8192x1 : S8192x3.Slices ![0, 1] S8192x1
  inb_S8x256_S1x256_1_0 : ∀ a, (![1, 0] : Fin 2 → Nat) a + S1x256.size a ≤ S8x256.size a
  slices_S8192x3_o0_2_S8192x1 : S8192x3.Slices ![0, 2] S8192x1
  inb_S8x256_S1x256_2_0 : ∀ a, (![2, 0] : Fin 2 → Nat) a + S1x256.size a ≤ S8x256.size a
  inb_S8x256_S3x256_0_0 : ∀ a, (![0, 0] : Fin 2 → Nat) a + S3x256.size a ≤ S8x256.size a
  h_S3x256 : 0 < S3x256.numel
  transposes_S3x256_p1_0_S256x3 : S3x256.Transposes [1, 0] S256x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  inb_S2x256x3_S1x256x3_0_0_0 : ∀ a, (![0, 0, 0] : Fin 3 → Nat) a + S1x256x3.size a ≤ S2x256x3.size a
  inb_S2x256x3_S1x256x3_1_0_0 : ∀ a, (![1, 0, 0] : Fin 3 → Nat) a + S1x256x3.size a ≤ S2x256x3.size a
  reduces_S256x3_S3 : S256x3.Reduces [0] S3
  shapeCasts_S3_S1x3 : S3.ShapeCasts S1x3
  broadcasts_S1x3_S256x3 : S1x3.Broadcasts S256x3
  inb_S256x3_S256x3_0_0 : ∀ a, (![0, 0] : Fin 2 → Nat) a + S256x3.size a ≤ S256x3.size a
  h_S256x3 : 0 < S256x3.numel
  dot_S1x8192_S8192x256_S1x256_1_0_0_1_n_n_wf : DotDims.WF S1x8192 S8192x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S2x8388608x3.size a
  hwx0_0 : ∀ i : grid0.Coords, EltTy.bits .f32 = 32 ∨ (Rect.block (s := S2x8388608x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S2x256x3.size a
  hwx0_1 : ∀ i : grid0.Coords, EltTy.bits .f32 = 32 ∨ (Rect.block (s := S2x256x3) S1x256x3.size (cc0_transform_1 i) (hinb0_1 i)).WholeWords (EltTy.packing .f32)
  hstage1_0 : ∀ j, (stage1_0 j).IsWhole
  hstage1_1 : ∀ j, (stage1_1 j).IsWhole

variable [Facts₀]

def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf

abbrev win0_0 : Pipeline.Window sig grid0 :=
  Pipeline.Window.ofSpec (Memref.whole main_v0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_v2) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x512x512x3 : Shape := ⟨4, ![64, 512, 512, 3]⟩
abbrev S16777216x3 : Shape := ⟨2, ![16777216, 3]⟩
abbrev S_ : Shape := ⟨0, ![]⟩
abbrev S3 : Shape := ⟨1, ![3]⟩
abbrev S1x3 : Shape := ⟨2, ![1, 3]⟩
abbrev S50331648 : Shape := ⟨1, ![50331648]⟩
abbrev S768 : Shape := ⟨1, ![768]⟩
abbrev S50331648x1 : Shape := ⟨2, ![50331648, 1]⟩
abbrev S3x256 : Shape := ⟨2, ![3, 256]⟩
abbrev S256x3 : Shape := ⟨2, ![256, 3]⟩

abbrev nBuf : Space → Nat
  | .hbm => 43
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S16777216x3, .f32⟩
  | .hbm, ⟨2, _⟩ => ⟨S_, .f32⟩
  | .hbm, ⟨3, _⟩ => ⟨S16777216x3, .f32⟩
  | .hbm, ⟨4, _⟩ => ⟨S16777216x3, .f32⟩
  | .hbm, ⟨5, _⟩ => ⟨S16777216x3, .f32⟩
  | .hbm, ⟨6, _⟩ => ⟨S16777216x3, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16777216x3, .i32⟩
  | .hbm, ⟨11, _⟩ => ⟨S16777216x3, .i32⟩
  | .hbm, ⟨12, _⟩ => ⟨S_, .i32⟩
  | .hbm, ⟨13, _⟩ => ⟨S16777216x3, .i32⟩
  | .hbm, ⟨14, _⟩ => ⟨S16777216x3, .i32⟩
  | .hbm, ⟨15, _⟩ => ⟨S3, .i32⟩
  | .hbm, ⟨16, _⟩ => ⟨S1x3, .i32⟩
  | .hbm, ⟨17, _⟩ => ⟨S_, .i32⟩
  | .hbm, ⟨18, _⟩ => ⟨S1x3, .i32⟩
  | .hbm, ⟨19, _⟩ => ⟨S1x3, .i32⟩
  | .hbm, ⟨20, _⟩ => ⟨S16777216x3, .i32⟩
  | .hbm, ⟨21, _⟩ => ⟨S16777216x3, .i32⟩
  | .hbm, ⟨22, _⟩ => ⟨S50331648, .i32⟩
  | .hbm, ⟨23, _⟩ => ⟨S_, .f32⟩
  | .hbm, ⟨24, _⟩ => ⟨S768, .f32⟩
  | .hbm, ⟨25, _⟩ => ⟨S_, .i32⟩
  | .hbm, ⟨26, _⟩ => ⟨S50331648, .i32⟩
  | .hbm, ⟨27, _⟩ => ⟨S50331648, .i1⟩
  | .hbm, ⟨28, _⟩ => ⟨S_, .i32⟩
  | .hbm, ⟨29, _⟩ => ⟨S50331648, .i32⟩
  | .hbm, ⟨30, _⟩ => ⟨S50331648, .i32⟩
  | .hbm, ⟨31, _⟩ => ⟨S50331648, .i32⟩
  | .hbm, ⟨32, _⟩ => ⟨S50331648x1, .i32⟩
  | .hbm, ⟨33, _⟩ => ⟨S_, .f32⟩
  | .hbm, ⟨34, _⟩ => ⟨S50331648, .f32⟩
  | .hbm, ⟨35, _⟩ => ⟨S768, .f32⟩
  | .hbm, ⟨36, _⟩ => ⟨S3x256, .f32⟩
  | .hbm, ⟨37, _⟩ => ⟨S256x3, .f32⟩
  | .hbm, ⟨38, _⟩ => ⟨S_, .f32⟩
  | .hbm, ⟨39, _⟩ => ⟨S3, .f32⟩
  | .hbm, ⟨40, _⟩ => ⟨S1x3, .f32⟩
  | .hbm, ⟨41, _⟩ => ⟨S256x3, .f32⟩
  | .hbm, ⟨42, _⟩ => ⟨S256x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  shapeCasts_S64x512x512x3_S16777216x3 : S64x512x512x3.ShapeCasts S16777216x3
  bcast_S_S16777216x3 : S_.BroadcastsInDim S16777216x3 (![] : Fin 0 → Fin S16777216x3.rank)
  bcast_S3_S1x3_1 : S3.BroadcastsInDim S1x3 (![1] : Fin 1 → Fin S1x3.rank)
  bcast_S_S1x3 : S_.BroadcastsInDim S1x3 (![] : Fin 0 → Fin S1x3.rank)
  bcast_S1x3_S16777216x3_0_1 : S1x3.BroadcastsInDim S16777216x3 (![0, 1] : Fin 2 → Fin S16777216x3.rank)
  shapeCasts_S16777216x3_S50331648 : S16777216x3.ShapeCasts S50331648
  bcast_S_S768 : S_.BroadcastsInDim S768 (![] : Fin 0 → Fin S768.rank)
  bcast_S_S50331648 : S_.BroadcastsInDim S50331648 (![] : Fin 0 → Fin S50331648.rank)
  bcast_S50331648_S50331648x1_0 : S50331648.BroadcastsInDim S50331648x1 (![0] : Fin 1 → Fin S50331648x1.rank)
  shapeCasts_S768_S3x256 : S768.ShapeCasts S3x256
  transposes_S3x256_S256x3_1_0 : S3x256.Transposes [1, 0] S256x3
  reducesTo_S256x3_S3_d0 : S256x3.ReducesTo [0] S3
  h_S_ : 0 < S_.numel
  bcast_S1x3_S256x3_0_1 : S1x3.BroadcastsInDim S256x3 (![0, 1] : Fin 2 → Fin S256x3.rank)
  scatter_S768_S50331648x1_S50331648_n_0_0_1_wf : ScatterDims.WF S768 S50331648x1 S50331648 [] [0] [0] 1

variable [Facts₀]

def scatter_S768_S50331648x1_S50331648_n_0_0_1 : ScatterDims S768 S50331648x1 S50331648 where
  updateWindowDims := []
  insertedWindowDims := [0]
  scatterDimsToOperandDims := [0]
  indexVectorDim := 1
  wf := scatter_S768_S50331648x1_S50331648_n_0_0_1_wf

class Facts : Prop extends Facts₀ where

variable [Facts]
-- ==== Proof.K.Runs0.lean ====
/-
  Region 0 (the partial-histogram kernel) on one grid point: the three shapes a point can take — the first
  block of a shard (the scratch is zeroed, then the block's counts are added), a middle block (counts added to
  what the point before left), the last block (counts added, then the three count rows written to the output
  block transposed) — each as a triple over whole staging buffers, with what the scratch and the output block
  hold afterwards named as functions of the input block and the scratch before.
-/
import proofs.«110654_j74637941669897_1_alg».proof.Proof.Gen.Kernel.Launch
import proofs.«110654_j74637941669897_1_alg».proof.Proof.Gen.Kernel.Skeleton
import proofs.«110654_j74637941669897_1_alg».proof.Proof.Gen.Kernel.Points
import Idealize.ShloMosaic.Lib.Pipeline.FrameBody
import Idealize.ShloMosaic.Lib.Ring
import Idealize.ShloMosaic.Lib.WritesUnit
import Idealize.ShloMosaic.Lib.Pipeline.Value
import Idealize.ShloMosaic.Lib.Tactic

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The scratch buffer and its count rows -/

/-- The scratch operand: a whole scoped buffer of 8 rows of 256 bins; rows 0, 1, 2 hold the three channels' counts. -/
abbrev scM : Memref sig .tc .vmem S8x256 .f32 := Memref.whole cc0_scratch0
abbrev hscM : (scM).IsWhole := Memref.isWhole_whole _
/-- Row k of the scratch (k = 0, 1, 2), the rows 0..2 together, and the whole scratch, as the body's accesses spell them. -/
abbrev rS0 : Rect S8x256 := Rect.unit (s := S8x256) ![0, 0] S1x256.size inb_S8x256_S1x256_0_0
abbrev rS1 : Rect S8x256 := Rect.unit (s := S8x256) ![1, 0] S1x256.size inb_S8x256_S1x256_1_0
abbrev rS2 : Rect S8x256 := Rect.unit (s := S8x256) ![2, 0] S1x256.size inb_S8x256_S1x256_2_0
abbrev rS012 : Rect S8x256 := Rect.unit (s := S8x256) ![0, 0] S3x256.size inb_S8x256_S3x256_0_0
/-- The lane index 0..255 along the bins, as the body builds it. -/
abbrev iotaV : IVec S8192x256 32 := iota .tc S8192x256 32 [1] iota_S8192x256_d1_w32

/-! ## The body's two conditions, decided over the grid -/

/-- "This is the shard's first block" (the body's first `scf.if`), from the grid coordinates. -/
abbrev condFirst (i : grid0.Coords) : Prop :=
  (Scalar.cmpi .ne (Scalar.extui (Scalar.cmpi .eq (BitVec.ofNat 32 (i 1).val) 0#32)) 0#32) = 1#1
/-- "This is the shard's last block" (the body's second `scf.if`). -/
abbrev condLast (i : grid0.Coords) : Prop := k0_cond2 i = 1#1

theorem hcondFirst : ∀ t : Fin cfg0.N, condFirst (grid0.coords t) ↔ t.val % 1024 = 0 :=
  (by decide +kernel : ∀ t : Fin grid0.N, condFirst (grid0.coords t) ↔ t.val % 1024 = 0)
theorem hcondLast : ∀ t : Fin cfg0.N, condLast (grid0.coords t) ↔ t.val % 1024 = 1023 :=
  (by decide +kernel : ∀ t : Fin grid0.N, condLast (grid0.coords t) ↔ t.val % 1024 = 1023)

/-! ## What one point leaves -/

/-- The zero offsets of a rank-3 (rank-2) whole-block access are the constant-zero offsets. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The scratch after a point that is not a shard's first, from the input block `x` and the scratch before `xs`:
    rows 0, 1, 2 each the row before plus the block's counts for that channel, rows 3..7 as before. -/
def stepB (x : Vec F S1x8192x3 .f32) (xs : Vec F S8x256 .f32) : Vec F S8x256 .f32 :=
  scM.view.read (Elt F) (scM.view.writes (Elt F) (hscM.unread xs)
    [⟨rS2, k0_pay2 (k0_pay5 x) iotaV (k0_pay6 (F := F)) (View.ld xs rS2)⟩,
     ⟨rS1, k0_pay1 (k0_pay8 x (View.ld xs rS1))⟩,
     ⟨rS0, k0_pay7 x (View.ld xs rS0)⟩])
/-- The scratch after a shard's first point: the same over the zeroed scratch. -/
def stepA (x : Vec F S1x8192x3 .f32) : Vec F S8x256 .f32 := stepB x (k0_pay4 (F := F))
/-- The output block after a shard's last point: the three count rows of the scratch after the point, transposed. -/
def outC (x : Vec F S1x8192x3 .f32) (xs : Vec F S8x256 .f32) : Vec F S1x256x3 .f32 :=
  k0_pay3 (View.ld (stepB x xs) rS012)

/-- A one-row access has a single row index. -/
theorem row_idx_zero (j : S1x256.Idx) : (j (0 : Fin 2)).val = 0 := by
  have h : (j (0 : Fin 2)).val < 1 := (j (0 : Fin 2)).isLt
  omega

theorem stepB_row0 (x : Vec F S1x8192x3 .f32) (xs : Vec F S8x256 .f32) :
    View.ld (stepB x xs) rS0 = k0_pay7 x (View.ld xs rS0) := by
  unfold stepB
  funext j
  show scM.view.read (Elt F) _ (rS0.emb j) = _
  have h0 := row_idx_zero j
  rw [View.read_writes_cons_rows_of_not_mem scM.view _ inb_S8x256_S1x256_2_0 _ _ (rS0.emb j) (o := 2) (W := 1) rfl rfl
        (Or.inl (by show 0 + 1 * (j (0 : Fin 2)).val < 2; omega)),
      View.read_writes_cons_rows_of_not_mem scM.view _ inb_S8x256_S1x256_1_0 _ _ (rS0.emb j) (o := 1) (W := 1) rfl rfl
        (Or.inl (by show 0 + 1 * (j (0 : Fin 2)).val < 1; omega))]
  exact View.read_writes_cons_emb scM.view _ rS0 _ _ j
theorem stepB_row1 (x : Vec F S1x8192x3 .f32) (xs : Vec F S8x256 .f32) :
    View.ld (stepB x xs) rS1 = k0_pay1 (k0_pay8 x (View.ld xs rS1)) := by
  unfold stepB
  funext j
  show scM.view.read (Elt F) _ (rS1.emb j) = _
  have h0 := row_idx_zero j
  rw [View.read_writes_cons_rows_of_not_mem scM.view _ inb_S8x256_S1x256_2_0 _ _ (rS1.emb j) (o := 2) (W := 1) rfl rfl
        (Or.inl (by show 1 + 1 * (j (0 : Fin 2)).val < 2; omega))]
  exact View.read_writes_cons_emb scM.view _ rS1 _ _ j
theorem stepB_row2 (x : Vec F S1x8192x3 .f32) (xs : Vec F S8x256 .f32) :
    View.ld (stepB x xs) rS2 = k0_pay2 (k0_pay5 x) iotaV (k0_pay6 (F := F)) (View.ld xs rS2) := by
  unfold stepB
  funext j
  exact View.read_writes_cons_emb scM.view _ rS2 _ _ j
theorem outC_eq (x : Vec F S1x8192x3 .f32) (xs : Vec F S8x256 .f32) :
    outC x xs = k0_pay3 (View.ld (stepB x xs) rS012) := rfl

/-! ## Reading the scratch back through the point's own stores -/

/-- A store through the whole buffer, alone, leaves its payload. -/
theorem read_store_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.ld_unit_zero hz inb _).symm.trans (funext fun j => View.read_writes_cons_emb v f (Rect.unit off S.size inb) w [] j)

/-- A row read back after the whole scratch was stored is that row of the stored payload. -/
theorem readCov_row_whole {o : ℕ} (inb : ∀ a : Fin 2, (![o, 0] : Fin 2 → ℕ) a + S1x256.size a ≤ S8x256.size a)
    (w : Vec F S8x256 .f32) :
    scM.view.readCov [(⟨Rect.unit (s := S8x256) ![0, 0] S8x256.size inb_S8x256_S8x256_0_0, w⟩ : View.Piece (Elt F) S8x256 .f32)]
        (Rect.unit (s := S8x256) ![o, 0] S1x256.size inb).toLoadRect
      = View.ld w (Rect.unit (s := S8x256) ![o, 0] S1x256.size inb) := by
  rw [View.readCov_eq_canon', View.canon_unit_zero zeros2]

/-- A row read back does not see a newer store to another row. -/
theorem readCov_row_skip {o o' : ℕ} (h : o ≠ o')
    (inb : ∀ a : Fin 2, (![o, 0] : Fin 2 → ℕ) a + S1x256.size a ≤ S8x256.size a)
    (inb' : ∀ a : Fin 2, (![o', 0] : Fin 2 → ℕ) a + S1x256.size a ≤ S8x256.size a)
    (w : Vec F S1x256 .f32) (L : List (View.Piece (Elt F) S8x256 .f32)) :
    scM.view.readCov ((⟨Rect.unit (s := S8x256) ![o', 0] S1x256.size inb', w⟩ : View.Piece (Elt F) S8x256 .f32) :: L)
        (Rect.unit (s := S8x256) ![o, 0] S1x256.size inb).toLoadRect
      = scM.view.readCov L (Rect.unit (s := S8x256) ![o, 0] S1x256.size inb).toLoadRect := by
  rw [View.readCov_eq_canon', View.readCov_eq_canon']
  funext j
  refine View.canon_cons_of_not_mem _ L ?_
  rw [Rect.mem_set_unit]
  intro hall
  obtain ⟨hlo, hhi⟩ := hall (0 : Fin 2)
  have hj := row_idx_zero j
  change o' ≤ o + 1 * (j (0 : Fin 2)).val at hlo
  change o + 1 * (j (0 : Fin 2)).val < o' + 1 at hhi
  omega

/-- Every element of rows 0..2 lies in one of the three row stores. -/
theorem rows012_cover (w2 w1 w0 : Vec F S1x256 .f32) (j : rS012.shape.Idx) :
    ∃ p ∈ ([⟨rS2, w2⟩, ⟨rS1, w1⟩, ⟨rS0, w0⟩] : List (View.Piece (Elt F) S8x256 .f32)), rS012.toLoadRect.idx j ∈ p.1.set := by
  have hj0 : (j (0 : Fin 2)).val < 3 := (j (0 : Fin 2)).isLt
  have hj1 : (j (1 : Fin 2)).val < 256 := (j (1 : Fin 2)).isLt
  rcases (by omega : (j (0 : Fin 2)).val = 0 ∨ (j (0 : Fin 2)).val = 1 ∨ (j (0 : Fin 2)).val = 2) with h | h | h
  · refine ⟨⟨rS0, w0⟩, List.mem_cons_of_mem _ (List.mem_cons_of_mem _ List.mem_cons_self), ?_⟩
    rw [Rect.mem_set_unit]
    refine Fin.forall_fin_two.mpr ⟨⟨?_, ?_⟩, ⟨?_, ?_⟩⟩
    · show 0 ≤ 0 + 1 * (j (0 : Fin 2)).val; omega
    · show 0 + 1 * (j (0 : Fin 2)).val < 0 + 1; omega
    · show 0 ≤ 0 + 1 * (j (1 : Fin 2)).val; omega
    · show 0 + 1 * (j (1 : Fin 2)).val < 0 + 256; omega
  · refine ⟨⟨rS1, w1⟩, List.mem_cons_of_mem _ List.mem_cons_self, ?_⟩
    rw [Rect.mem_set_unit]
    refine Fin.forall_fin_two.mpr ⟨⟨?_, ?_⟩, ⟨?_, ?_⟩⟩
    · show 1 ≤ 0 + 1 * (j (0 : Fin 2)).val; omega
    · show 0 + 1 * (j (0 : Fin 2)).val < 1 + 1; omega
    · show 0 ≤ 0 + 1 * (j (1 : Fin 2)).val; omega
    · show 0 + 1 * (j (1 : Fin 2)).val < 0 + 256; omega
  · refine ⟨⟨rS2, w2⟩, List.mem_cons_self, ?_⟩
    rw [Rect.mem_set_unit]
    refine Fin.forall_fin_two.mpr ⟨⟨?_, ?_⟩, ⟨?_, ?_⟩⟩
    · show 2 ≤ 0 + 1 * (j (0 : Fin 2)).val; omega
    · show 0 + 1 * (j (0 : Fin 2)).val < 2 + 1; omega
    · show 0 ≤ 0 + 1 * (j (1 : Fin 2)).val; omega
    · show 0 + 1 * (j (1 : Fin 2)).val < 0 + 256; omega

/-- Rows 0..2 read back after the three row stores are those rows of what the stores left, whatever was there before. -/
theorem readCov_rows012 (f : scM.view.ty.Contents (Elt F)) (w2 w1 w0 : Vec F S1x256 .f32) :
    scM.view.readCov ([⟨rS2, w2⟩, ⟨rS1, w1⟩, ⟨rS0, w0⟩] : List (View.Piece (Elt F) S8x256 .f32)) rS012.toLoadRect
      = View.ld (scM.view.read (Elt F) (scM.view.writes (Elt F) f [⟨rS2, w2⟩, ⟨rS1, w1⟩, ⟨rS0, w0⟩])) rS012 :=
  (View.readAt_writes_of_cover scM.view f _ rS012.toLoadRect (rows012_cover w2 w1 w0)).symm

/-- The input block as the body's whole-block load reads it off the raw contents of its staging buffer. -/
abbrev xLd (arg2 : Memref sig .tc .vmem S1x8192x3 .f32) (harg2 : arg2.IsWhole) (x : Vec F S1x8192x3 .f32) : Vec F S1x8192x3 .f32 :=
  View.ld (arg2.view.read (Elt F) (harg2.unread x)) (Rect.unit (s := S1x8192x3) ![0, 0, 0] S1x8192x3.size inb_S1x8192x3_S1x8192x3_0_0_0)
theorem xLd_eq (arg2 : Memref sig .tc .vmem S1x8192x3 .f32) (harg2 : arg2.IsWhole) (x : Vec F S1x8192x3 .f32) :
    xLd arg2 harg2 x = x := by
  unfold xLd
  rw [harg2.read_unread, View.ld_unit_zero (S := S1x8192x3) zeros3]

/-- What the three row stores leave, over loads spelt through the buffers' raw contents, is `stepB`. -/
theorem scratch_after (arg2 : Memref sig .tc .vmem S1x8192x3 .f32) (harg2 : arg2.IsWhole)
    (x : Vec F S1x8192x3 .f32) (xs : Vec F S8x256 .f32) :
    scM.view.read (Elt F) (scM.view.writes (Elt F) (hscM.unread xs)
      [⟨rS2, k0_pay2 (k0_pay5 (xLd arg2 harg2 x)) iotaV (k0_pay6 (F := F)) (View.ld (scM.view.read (Elt F) (hscM.unread xs)) rS2)⟩,
       ⟨rS1, k0_pay1 (k0_pay8 (xLd arg2 harg2 x) (View.ld (scM.view.read (Elt F) (hscM.unread xs)) rS1))⟩,
       ⟨rS0, k0_pay7 (xLd arg2 harg2 x) (View.ld (scM.view.read (Elt F) (hscM.unread xs)) rS0)⟩])
    = stepB x xs := by
  rw [xLd_eq, hscM.read_unread]
  rfl

/-- The same after the scratch was first stored whole with the zero block: the zero block is what the rows are read from,
    and the stores end at `stepA`, whatever the scratch held. -/
theorem scratch_after_first (arg2 : Memref sig .tc .vmem S1x8192x3 .f32) (harg2 : arg2.IsWhole)
    (x : Vec F S1x8192x3 .f32) (f : scM.view.ty.Contents (Elt F)) :
    scM.view.read (Elt F) (scM.view.writes (Elt F) f
      [⟨rS2, k0_pay2 (k0_pay5 (xLd arg2 harg2 x)) iotaV (k0_pay6 (F := F))
          (scM.view.readCov [(⟨Rect.unit (s := S8x256) ![0, 0] S8x256.size inb_S8x256_S8x256_0_0, k0_pay4 (F := F)⟩ : View.Piece (Elt F) S8x256 .f32)] rS2.toLoadRect)⟩,
       ⟨rS1, k0_pay1 (k0_pay8 (xLd arg2 harg2 x)
          (scM.view.readCov [(⟨Rect.unit (s := S8x256) ![0, 0] S8x256.size inb_S8x256_S8x256_0_0, k0_pay4 (F := F)⟩ : View.Piece (Elt F) S8x256 .f32)] rS1.toLoadRect))⟩,
       ⟨rS0, k0_pay7 (xLd arg2 harg2 x)
          (scM.view.readCov [(⟨Rect.unit (s := S8x256) ![0, 0] S8x256.size inb_S8x256_S8x256_0_0, k0_pay4 (F := F)⟩ : View.Piece (Elt F) S8x256 .f32)] rS0.toLoadRect)⟩,
       ⟨Rect.unit (s := S8x256) ![0, 0] S8x256.size inb_S8x256_S8x256_0_0, k0_pay4 (F := F)⟩])
    = stepA x := by
  have e := hscM.eq_unread (Val := Elt F)
    (f := scM.view.writes (Elt F) f [⟨Rect.unit (s := S8x256) ![0, 0] S8x256.size inb_S8x256_S8x256_0_0, k0_pay4 (F := F)⟩])
    (read_store_whole scM.view f zeros2 inb_S8x256_S8x256_0_0 (k0_pay4 (F := F)))
  rw [xLd_eq, readCov_row_whole inb_S8x256_S1x256_2_0, readCov_row_whole inb_S8x256_S1x256_1_0,
    readCov_row_whole inb_S8x256_S1x256_0_0]
  unfold stepA stepB
  rw [← e]
  rfl

/-! ## The body's triples, one per shape of point -/

/-- A shard's first block (not its last): whatever the scratch held, it ends at `stepA x`; the output block's buffer is untouched. -/
theorem run_first (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : condFirst i) (hc1 : ¬condLast i)
    (x : Vec F S1x8192x3 .f32) (xi : Vec F S1x256x3 .f32) (K : PUnit → sProp 𝕄) :
    iprop(owns (c : Thread nD τ) arg2 fullShare x ∗ owns (c : Thread nD τ) arg3 fullShare xi ∗ (∃ d, owns (c : Thread nD τ) scM fullShare d)
        ∗ (iprop(owns (c : Thread nD τ) arg2 fullShare x ∗ owns (c : Thread nD τ) arg3 fullShare xi ∗ owns (c : Thread nD τ) scM fullShare (stepA x)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _
  isplitr
  swap
  · iexact HS0
  · ipureintro
    sl_unfold_run_names
    simp only [readCov_row_skip (o := 1) (o' := 0) (by decide), readCov_row_skip (o := 2) (o' := 1) (by decide),
      readCov_row_skip (o := 2) (o' := 0) (by decide)]
    exact scratch_after_first arg2 harg2 x fs0

/-- A middle block: the scratch goes from `xs` to `stepB x xs`; the output block's buffer is untouched. -/
theorem run_middle (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : ¬condFirst i) (hc1 : ¬condLast i)
    (x : Vec F S1x8192x3 .f32) (xi : Vec F S1x256x3 .f32) (xs : Vec F S8x256 .f32) (K : PUnit → sProp 𝕄) :
    iprop(owns (c : Thread nD τ) arg2 fullShare x ∗ owns (c : Thread nD τ) arg3 fullShare xi ∗ owns (c : Thread nD τ) scM fullShare xs
        ∗ (iprop(owns (c : Thread nD τ) arg2 fullShare x ∗ owns (c : Thread nD τ) arg3 fullShare xi ∗ owns (c : Thread nD τ) scM fullShare (stepB x xs)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := hscM.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _
  isplitr
  swap
  · iexact HS0
  · ipureintro
    sl_unfold_run_names
    exact scratch_after arg2 harg2 x xs

/-- A shard's last block (not its first): the scratch goes from `xs` to `stepB x xs` and the output block ends at `outC x xs`. -/
theorem run_last (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : ¬condFirst i) (hc1 : condLast i)
    (x : Vec F S1x8192x3 .f32) (xs : Vec F S8x256 .f32) (K : PUnit → sProp 𝕄) :
    iprop(owns (c : Thread nD τ) arg2 fullShare x ∗ (∃ d, owns (c : Thread nD τ) arg3 fullShare d) ∗ owns (c : Thread nD τ) scM fullShare xs
        ∗ (iprop(owns (c : Thread nD τ) arg2 fullShare x ∗ owns (c : Thread nD τ) arg3 fullShare (outC x xs) ∗ owns (c : Thread nD τ) scM fullShare (stepB x xs)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%d1, %f1, -, H1⟩, ⟨%fs0, %hfs0, HS0⟩, Hk⟩
  obtain rfl := harg2.eq_unread hf0; obtain rfl := hscM.eq_unread hfs0
  sl_exec (disch := first | exact hc0 | exact hc1)
  sl_step
  iapply Hk
  isplitl [H0]
  · iexists _; isplitr; · ipureintro; exact harg2.read_unread _
    iexact H0
  isplitl [H1]
  · iexists _
    isplitr
    swap
    · iexact H1
    · ipureintro
      sl_unfold_run_names
      refine (read_store_whole arg3.view f1 zeros3 _ _).trans ?_
      exact congrArg k0_pay3 ((readCov_rows012 (hscM.unread xs) _ _ _).trans
        (congrArg (fun X => View.ld X rS012) (scratch_after arg2 harg2 x xs)))
  iexists _
  isplitr
  swap
  · iexact HS0
  · ipureintro
    sl_unfold_run_names
    exact scratch_after arg2 harg2 x xs

end Cert.Kernel.Hist

end
-- ==== Proof.K.Data0.lean ====
/-
  Region 0 over its whole grid of 2 shards × 1024 blocks: what the scratch holds after each point (the running
  counts of the shard so far), what the output block's buffer holds after a shard's last point, the region's
  invariant (the scratch at those running counts between points) and the pipeline's proof data; then the body
  obligation at every point from the three triples.
-/
import proofs.«110654_j74637941669897_1_alg».proof.Proof.K.Runs0

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running counts -/

/-- The scratch after the body at position `n`: at a shard's first block the block's counts over zero, else the
    block's counts added to what the position before left. -/
def scrAt (c : Dev nD) : (n : ℕ) → n < cfg0.N → Vec F S8x256 .f32
  | 0, hn => stepA (iblk0 V c 0 ⟨0, hn⟩)
  | n + 1, hn =>
    if (n + 1) % 1024 = 0 then stepA (iblk0 V c 0 ⟨n + 1, hn⟩)
    else stepB (iblk0 V c 0 ⟨n + 1, hn⟩) (scrAt c n (Nat.lt_of_succ_lt hn))

/-- The scratch before position `n` (what position `n - 1` left; before the first point a placeholder nothing reads). -/
def scrBefore (c : Dev nD) : (n : ℕ) → n ≤ cfg0.N → Vec F S8x256 .f32
  | 0, _ => k0_pay4 (F := F)
  | n + 1, hn => scrAt V c n hn

/-- The output block's staging buffer after the body at point `t`: the counts transposed. Meaningful at a shard's
    last block, the only points that store it and write it back; elsewhere the window is idle and nothing reads this. -/
def outAt (c : Dev nD) (t : Fin cfg0.N) : Vec F S1x256x3 .f32 :=
  outC (iblk0 V c 0 t) (scrBefore V c t.val (Nat.le_of_lt t.isLt))

theorem scrAt_first (c : Dev nD) (t : Fin cfg0.N) (h : t.val % 1024 = 0) :
    scrAt V c t.val t.isLt = stepA (iblk0 V c 0 t) := by
  obtain ⟨n, hn⟩ := t
  cases n with
  | zero => rfl
  | succ n => exact if_pos h

theorem scrAt_later (c : Dev nD) (t : Fin cfg0.N) (h : ¬ t.val % 1024 = 0) :
    scrAt V c t.val t.isLt = stepB (iblk0 V c 0 t) (scrBefore V c t.val (Nat.le_of_lt t.isLt)) := by
  obtain ⟨n, hn⟩ := t
  cases n with
  | zero => exact absurd (Nat.zero_mod _) h
  | succ n => exact if_neg h

/-! ## The invariant and the proof data -/

/-- The region invariant before position `n`: before the first point the class's (every scoped buffer that is no
    staging buffer at anything, the generator register at some state); afterwards the same with the scratch at the
    running counts the position before left. -/
def PhiS (c : Dev nD) : (n : ℕ) → n ≤ cfg0.N → sProp 𝕄
  | 0, _ => Pipeline.ΦA spec0 c
  | n + 1, hn => iprop(iprop(owns (c : Thread nD τ) scM fullShare (scrAt V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r))

/-- The proof data of pipeline 0 on core `c`: the arrays as the region finds them; after the body the input's buffer at
    its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outAt V c t := by dsimp only [dat0]

/-! ## The invariant, arm by arm -/

/-- The class invariant with the scratch as an operand owned at some contents. -/
theorem PhiA0_eq (c : Dev nD) :
    (Pipeline.ΦA spec0 c : sProp 𝕄)
      = iprop(iprop((∃ d, owns (c : Thread nD τ) scM fullShare d)
          ∗ (∃ f : Buf (Elt F) ((c : Thread nD τ).loc cc1_stg0_0), ((c : Thread nD τ).loc cc1_stg0_0) ↦{fullShare} f)
          ∗ (∃ f : Buf (Elt F) ((c : Thread nD τ).loc cc1_stg1_0), ((c : Thread nD τ).loc cc1_stg1_0) ↦{fullShare} f))
        ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS V c n h = Pipeline.ΦA spec0 c := by
  subst hz; rfl

/-- After position `n`: the scratch at that position's running counts. -/
theorem PhiS_succ (c : Dev nD) (n : ℕ) (hn : n < cfg0.N) :
    PhiS V c (n + 1) hn = iprop(iprop(owns (c : Thread nD τ) scM fullShare (scrAt V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r)) := rfl

/-- Before a position that is not the first: the scratch at what the position before left. -/
theorem PhiS_pos (c : Dev nD) (n : ℕ) (h : n ≤ cfg0.N) (hz : n ≠ 0) :
    PhiS V c n h = iprop(iprop(owns (c : Thread nD τ) scM fullShare (scrBefore V c n h)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## Facts about the grid -/

/-- The input window is live at every point; -/
theorem liveAt0_0 : ∀ t : Fin cfg0.N, cfg0.idle 0 (grid0.coords t) = false := by decide +kernel
/-- the output window is idle at every point that is not a shard's last, -/
theorem idleAt0_1 : ∀ t : Fin cfg0.N, ¬ t.val % 1024 = 1023 → cfg0.idle 1 (grid0.coords t) = true := by decide +kernel
/-- live at a shard's last, -/
theorem liveAt0_1 : ∀ t : Fin cfg0.N, t.val % 1024 = 1023 → cfg0.idle 1 (grid0.coords t) = false := by decide +kernel
/-- and written back nowhere else. -/
theorem noFlush0_1 (t : Fin cfg0.N) (h : ¬ t.val % 1024 = 1023) : (cfg0.win 1).flush t = false :=
  Bool.eq_false_iff.mpr fun hf => h ((flush0_1 t).mp hf)

/-- Each window's current staging memref at point `t`, and its wholeness. -/
abbrev ms0_0 (t : Fin cfg0.N) : Memref sig .tc .vmem S1x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x3 .f32 := win0_1.stage (cfg0.slots t 1)
abbrev hs0_1 (t : Fin cfg0.N) : (ms0_1 t).IsWhole := hstage0_1 ((cfg0.slots t 1).cast nbuf0_1)

/-- The input's current staging buffer holds its block at every point: the window is fetched whole and never idle,
    and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block. A point is a shard's first block, a middle block or
    its last (a shard has 1024 blocks, so never both first and last). At a first block the scratch is whatever the
    invariant holds (anything before the very first point, the previous shard's final counts otherwise) and ends
    at the block's counts over zero; at the others it goes from the running counts before to the running counts
    after. The output's buffer is handed back as found except at a last block, where it ends at the transposed
    counts. The two other scoped buffers and the generator register pass through; the core owes nothing. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 2048 := lt_of_lt_of_eq t.isLt (show cfg0.N = 2048 from N_0)
  by_cases h0 : t.val % 1024 = 0
  · have h1 : ¬ t.val % 1024 = 1023 := by omega
    rw [Dat.leavesExact_idle (dat0 V c) 1 t (idleAt0_1 t h1) (noFlush0_1 t h1)]
    rw [scrAt_first V c t h0]
    by_cases hz : t.val = 0
    · rw [PhiS_castSucc V c t, PhiS_zero V c _ _ hz, PhiA0_eq]
      iintro ⟨⟨⟨HS0, HE1, HE2⟩, Hg⟩, Ho, ⟨%d0, H0⟩, ⟨%d1, H1⟩⟩
      iapply (run_first c Set.univ (grid0.coords t) _ _ _ _ ((hcondFirst t).mpr h0) (fun h => h1 ((hcondLast t).mp h))
        (iblk0 V c 0 t) ((dat0 V c).before 1 t d1) _)
      isplitl [H0]; · iexact H0
      isplitl [H1]; · iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1
    · rw [PhiS_castSucc V c t, PhiS_pos V c _ _ hz]
      iintro ⟨⟨⟨HS0, HE1, HE2⟩, Hg⟩, Ho, ⟨%d0, H0⟩, ⟨%d1, H1⟩⟩
      iapply (run_first c Set.univ (grid0.coords t) _ _ _ _ ((hcondFirst t).mpr h0) (fun h => h1 ((hcondLast t).mp h))
        (iblk0 V c 0 t) ((dat0 V c).before 1 t d1) _)
      isplitl [H0]; · iexact H0
      isplitl [H1]; · iexact H1
      isplitl [HS0]; · iexists _; iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1
  · have hz : t.val ≠ 0 := fun e => h0 (by rw [e])
    rw [scrAt_later V c t h0]
    rw [PhiS_castSucc V c t, PhiS_pos V c _ _ hz]
    by_cases h1 : t.val % 1024 = 1023
    · rw [show (dat0 V c).leavesExact 1 t = owns (c : Thread nD τ) (ms0_1 t) fullShare ((dat0 V c).after 1 t) from by
        unfold Dat.leavesExact; rw [liveAt0_1 t h1], after0_1]
      unfold outAt
      iintro ⟨⟨⟨HS0, HE1, HE2⟩, Hg⟩, Ho, ⟨%d0, H0⟩, ⟨%d1, H1⟩⟩
      iapply (run_last c Set.univ (grid0.coords t) _ _ _ _ (fun h => h0 ((hcondFirst t).mp h)) ((hcondLast t).mpr h1)
        (iblk0 V c 0 t) (scrBefore V c t.val (Nat.le_of_lt t.isLt)) _)
      isplitl [H0]; · iexact H0
      isplitl [H1]; · iexists _; iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexact H1
    · rw [Dat.leavesExact_idle (dat0 V c) 1 t (idleAt0_1 t h1) (noFlush0_1 t h1)]
      iintro ⟨⟨⟨HS0, HE1, HE2⟩, Hg⟩, Ho, ⟨%d0, H0⟩, ⟨%d1, H1⟩⟩
      iapply (run_middle c Set.univ (grid0.coords t) _ _ _ _ (fun h => h0 ((hcondFirst t).mp h)) (fun h => h1 ((hcondLast t).mp h))
        (iblk0 V c 0 t) ((dat0 V c).before 1 t d1) (scrBefore V c t.val (Nat.le_of_lt t.isLt)) _)
      isplitl [H0]; · iexact H0
      isplitl [H1]; · iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2048 := N_0; omega), PhiA0_eq]
  iintro ⟨⟨HS0, HE1, HE2⟩, Hg⟩
  isplitl [HS0 HE1 HE2]
  · isplitl [HS0]; · iexists _; iexact HS0
    isplitl [HE1]; · iexact HE1
    iexact HE2
  iexact Hg

end Cert.Kernel.Hist

end
-- ==== Proof.K.Region1.lean ====
/-
  Region 1 (the finalize kernel), a gridless pipeline of one point: the two shards' partial histograms are
  loaded whole, added, each channel's total taken over the bins, and the quotient stored whole.
-/
import proofs.«110654_j74637941669897_1_alg».proof.Proof.Gen.Kernel.Launch
import proofs.«110654_j74637941669897_1_alg».proof.Proof.Gen.Kernel.Skeleton
import proofs.«110654_j74637941669897_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it (`V`): the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: shard 0's and shard 1's partial histogram in the input, the whole output. -/
abbrev rP0 : Rect S2x256x3 := Rect.unit (s := S2x256x3) ![0, 0, 0] S1x256x3.size inb_S2x256x3_S1x256x3_0_0_0
abbrev rP1 : Rect S2x256x3 := Rect.unit (s := S2x256x3) ![1, 0, 0] S1x256x3.size inb_S2x256x3_S1x256x3_1_0_0
abbrev rOut : Rect S256x3 := Rect.unit (s := S256x3) ![0, 0] S256x3.size inb_S256x3_S256x3_0_0

/-- What the body leaves in the output's staging buffer, from the input's: its one store. -/
def out1 (x : Vec F S2x256x3 .f32) : Vec F S256x3 .f32 :=
  View.canon [⟨rOut, k1_pay1 (View.ld x rP0) (View.ld x rP1)⟩]

/-- The proof data of pipeline 1 on core `c`: the class's invariant, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1 (iblk1 V c 0 t) := by dsimp only [dat1]

/-- The one store is of the whole output, so it covers every index. -/
theorem cover1 (p : Vec F S256x3 .f32) (y : S256x3.Idx) :
    ∃ pc ∈ ([⟨rOut, p⟩] : List (View.Piece (Elt F) S256x3 .f32)), y ∈ pc.1.set :=
  View.cover_of_tiled [⟨rOut, p⟩] S256x3.size (by rfl) y

set_option maxHeartbeats 1000000 in
/-- The kernel on whole memrefs, the input's at contents `x` and the output's at anything: it leaves the input
    as it was and the output at `out1 x`. -/
theorem sound_kernel1 (c : Dev nD) (E : Set ℕ) (arg0 : Memref sig .tc .vmem S2x256x3 .f32) (harg0 : arg0.IsWhole)
    (arg1 : Memref sig .tc .vmem S256x3 .f32) (harg1 : arg1.IsWhole)
    (x : Vec F S2x256x3 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (out1 x)) -∗ K ⟨⟩))
      ⊢ wp frame (wpE (defs₀ (F := F)) Variants.none c none) E (cc1__finalize_kernel arg0 harg0 arg1 harg1) K := by
  simp only [cc1__finalize_kernel_eq_skeleton]; unfold cc1__finalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The input's staging buffer holds the input array's one block — the whole array — when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's memref holds the whole input array, so the kernel's triple applies; the
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at the one point. -/
theorem body_obligation1 (c : Dev nD) : BodyObligation (dat1 (F := F) V c) (defs₀ (F := F)) Variants.none () Set.univ := fun t => by
  rw [bigSep_W1, bigSep_W1]
  exact sound_body1 V c t

end Cert.Kernel.Hist

end
-- ==== Proof.K.Launch.lean ====
/-
  The whole program: the host reshape, then region 0, then region 1. The buffers' contents at each boundary, the two
  regions as segments over those contents, and the run: every weakly fair execution terminates and every unscoped
  buffer ends at the last boundary's contents — the argument as launched, the result at what region 1's one
  write-back leaves.
-/
import proofs.«110654_j74637941669897_1_alg».proof.Proof.K.Data0
import proofs.«110654_j74637941669897_1_alg».proof.Proof.K.Region1
import proofs.«110654_j74637941669897_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host reshape (region 0's entry). -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what the pipeline's write-backs leave, every other buffer as entered (region 1's entry). -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N

/-- A region leaves each of its windows' arrays at the fold of the pipeline's write-backs, -/
theorem W2_at_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W3_at_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
/-- and every buffer that is no window's array as it found it. -/
theorem W2_off_arr (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_off_arr (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- Region 0 reads the argument reshaped. -/
theorem V1_main_v0 (c : Dev nD) :
    V1 m c main_v0 = shapeCast S2x8388608x3 (m ((c : Thread nD τ).loc main_arg0)) shapeCasts_S64x512x512x3_S2x8388608x3 := by
  show StableHlo.after hostOps0 _ (Proc.devRef .tc main_v0) = _
  after_results
  rfl
/-- Region 1 reads what region 0's write-backs left in the partial histograms. -/
theorem V2_main_v1 (c : Dev nD) : V2 m c main_v1 = (dat0 (V1 m) c).arrAt 1 cfg0.N := W2_at_arr m c 1
/-- The result ends at what region 1's write-back left. -/
theorem W3_main_v2 (c : Dev nD) : W3 m c (Proc.devRef .tc main_v2) = (dat1 (V2 m) c).arrAt 1 cfg1.N := W3_at_arr m c 1
/-- The argument ends as launched: it is no window's array of either region, and the reshape writes only its result. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_off_arr m c main_arg0 (by decide)
    _ = W1 m c (Proc.devRef .tc main_arg0) := W2_off_arr m c main_arg0 (by decide)
    _ = W0 m c (Proc.devRef .tc main_arg0) := by
      unfold W1; exact StableHlo.after_of_writes_sub hostOps0 _ hostOps0_writes (by decide)
    _ = m ((c : Thread nD τ).loc main_arg0) := rfl

/-! ## The two pipelines' proof data and the thread state between segments -/

/-- Each pipeline's proof data at the contents its region is entered with: region 0 after the reshape, region 1
    after region 0. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

/-- No core owes another anything, so no semaphore carries a level. -/
abbrev noLv : GSem nD τ sig → Finset Unit := fun _ => ∅
abbrev lv0 : GSem nD τ sig → Unit → ℕ := fun _ _ => 0

/-- The generator register at some state, -/
abbrev gen (c : Dev nD) : sProp 𝕄 := iprop(∃ r, prngReg c r)
/-- the core owing nothing, -/
abbrev owesNone (c : Dev nD) : sProp 𝕄 := iprop(∃ W, owes (c : Thread nD τ) (0 : CellTallies nD τ sig Unit) W)
/-- and the two together: what a core holds beside its unscoped buffers at every boundary. -/
abbrev side (c : Dev nD) : sProp 𝕄 := iprop(gen (F := F) c ∗ owesNone (F := F) c)

/-- Core `c` between two segments: every unscoped buffer whole at the boundary's contents `W c`, beside `side`. -/
abbrev bdry (W : Dev nD → Valuation τ sig (Elt F)) (c : Dev nD) : sProp 𝕄 :=
  iprop(StableHlo.held (c : Thread nD τ) (Pipeline.ucRefs τ sig) (W c) ∗ side (F := F) c)

/-- An unscoped reference of the TensorCore is among those held. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The reshape allocates nothing. -/
theorem reshape_fresh : (hostOps0 : List (HloOp τ sig (Elt F))).Forall fun op => op.fresh = ∅ := hostOps0_fresh

/-- The host reshape as a segment from the launch contents: it leaves the buffers at `W1`. -/
abbrev host0 : Pipeline.HostSeg (Name := ℕ) (U := UR sig nD τ) (pcfgs (F := F)) defs₀ Variants.none noLv lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp reshape_fresh) op h) (W0 m) (side (F := F))

/-! ## The regions as segments -/

/-- Region 0's arrays at the fold of its write-backs are `V2` there, and `V2` is `V1` elsewhere. -/
theorem exit0_arr (c : Dev nD) (w : Fin cfg0.W) : (dat0 (V1 m) c).arrAt w cfg0.N = V2 m c (Pipeline.arrRef spec0 w) :=
  (W2_at_arr m c w).symm
theorem exit0_rest (c : Dev nD) : ∀ b, b ∉ Finset.univ.image (Pipeline.arrRef spec0) → V2 m c b = V1 m c b :=
  fun b hb => W2_off_arr m c b fun w e => hb (Finset.mem_image.mpr ⟨w, Finset.mem_univ _, e⟩)
/-- The same of region 1 between `V2` and the last contents. -/
theorem exit1_arr (c : Dev nD) (w : Fin cfg1.W) :
    (dat1 (V2 m) c).arrAt w cfg1.N = (fun b : Ref sig .tc => W3 m c b) (Pipeline.arrRef spec1 w) :=
  (W3_at_arr m c w).symm
theorem exit1_rest (c : Dev nD) :
    ∀ b, b ∉ Finset.univ.image (Pipeline.arrRef spec1) → (fun b : Ref sig .tc => W3 m c b) b = V2 m c b :=
  fun b hb => W3_off_arr m c b fun w e => hb (Finset.mem_image.mpr ⟨w, Finset.mem_univ _, e⟩)

set_option backward.isDefEq.respectTransparency.types false in
/-- REGION 0 from the contents `W1` to `W2`. Entering, the windows' arrays are taken out of the unscoped buffers and
    the rest bypasses the region; the generator register and the scoped buffers no window stages make the class
    invariant, which is the region's own invariant before the first point; leaving, the region's invariant after the
    last point forgets the scratch's contents and gives the class invariant back, and the arrays at the fold of the
    write-backs rejoin the rest. Nothing is owed and the kernel has no semaphore of its own. -/
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noLv lv0 0 fun _ _ => rfl
  pre := bdry (W1 m)
  post := bdry (W2 m)
  X := gen
  Y := gen
  Z c := Pipeline.unscopedRest (Ix := Unit) (Name := ℕ) (U := UR sig nD τ) (Lvl := ℕ) spec0 c (V1 m c)
  hentry c := by
    rw [Pipeline.ownSems0_none]
    have htake := Pipeline.arrays_of_unscopedBufs (p := 0) (pcfgs (F := F)) adm (pdats m) launch0.win launch0.arr_whole c
      ((pdats m 0 c).share_full fun _ => rfl) (V1 m c) fun _ => rfl
    rw [Pipeline.unscopedBufs_held] at htake
    iintro ⟨⟨Hbufs, Hgen, Howe⟩, -, -⟩
    ihave Hs := htake $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%W, Howe⟩
      iexists W
      isplitr; · ipureintro; exact fun _ _ => Or.inl trivial
      iexact Howe
    isplitl [Hgen]; · iexact Hgen
    iexact Hby
  hin c := by
    refine BIBase.Entails.trans ?_ (hin0 (V1 m) c)
    unfold Pipeline.ΦA
    iintro ⟨Hgen, -, Hsc⟩
    isplitl [Hsc]; · iexact Hsc
    iexact Hgen
  hout c := by
    rw [Pipeline.ownSems0_none]
    refine BIBase.Entails.trans (hout0 (V1 m) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hput
    iintro ⟨Harr, Howe, Hgen, Hby⟩
    imodintro
    isplitl [Harr Hby]
    · iapply hput
      isplitl [Harr]; · iexact Harr
      iexact Hby
    isplitl [Hgen]; · iexact Hgen
    unfold Pipeline.Dat.owesAt Pipeline.owesWithin
    icases Howe with ⟨%W, -, Howe⟩
    iexists W
    iexact Howe

/-- The last thread state short of the core owing nothing: every unscoped buffer at `W3`, the generator register at
    some state. -/
abbrev lastState (c : Dev nD) : sProp 𝕄 :=
  iprop(StableHlo.held (c : Thread nD τ) (Pipeline.ucRefs τ sig) (W3 m c) ∗ gen (F := F) c)

set_option backward.isDefEq.respectTransparency.types false in
/-- REGION 1 from the contents `W2` to `W3`: the same exchange, its invariant the class's throughout. -/
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noLv lv0 1 fun _ _ => rfl
  pre := bdry (W2 m)
  post c := iprop(lastState m c ∗ owesNone (F := F) c)
  X := gen
  Y := gen
  Z c := Pipeline.unscopedRest (Ix := Unit) (Name := ℕ) (U := UR sig nD τ) (Lvl := ℕ) spec1 c (V2 m c)
  hentry c := by
    rw [Pipeline.ownSems0_none]
    have htake := Pipeline.arrays_of_unscopedBufs (p := 1) (pcfgs (F := F)) adm (pdats m) launch1.win launch1.arr_whole c
      ((pdats m 1 c).share_full fun _ => rfl) (V2 m c) fun _ => rfl
    rw [Pipeline.unscopedBufs_held] at htake
    iintro ⟨⟨Hbufs, Hgen, Howe⟩, -, -⟩
    ihave Hs := htake $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%W, Howe⟩
      iexists W
      isplitr; · ipureintro; exact fun _ _ => Or.inl trivial
      iexact Howe
    isplitl [Hgen]; · iexact Hgen
    iexact Hby
  hin c := by
    rw [show (pdats m 1 c).Φ 0 = Pipeline.ΦA spec1 c from rfl]
    unfold Pipeline.ΦA
    iintro ⟨Hgen, -, Hsc⟩
    isplitl [Hsc]; · iexact Hsc
    iexact Hgen
  hout c := by
    rw [Pipeline.ownSems0_none, show (pdats m 1 c).Φ (Fin.last _) = Pipeline.ΦA spec1 c from rfl]
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b : Ref sig .tc => W3 m c b) ((pdats m 1 c).arrAt · cfg1.N) (exit1_arr m c) (exit1_rest m c)
    rw [Pipeline.unscopedBufs_held] at hput
    iintro ⟨Harr, Howe, Hgen, Hby⟩
    imodintro
    isplitl [Harr Hby Hgen]
    · isplitl [Harr Hby]
      · iapply hput
        isplitl [Harr]; · iexact Harr
        iexact Hby
      iexact Hgen
    unfold Pipeline.Dat.owesAt Pipeline.owesWithin
    icases Howe with ⟨%W, -, Howe⟩
    iexists W
    iexact Howe

/-! ## The run -/

/-- @main's three segments in its order. -/
abbrev segs : List (Pipeline.Seg (pcfgs (F := F)) adm (pdats m) () defs₀ Variants.none noLv lv0) :=
  [.host (host0 m), .region (reg0 m), .region (reg1 m)]

/-- @main is the run of those segments. -/
theorem main_is_segs (c : Dev nD) : main (F := F) c = Pipeline.Seg.run (segs m) :=
  (main_chain c).trans (by chain_rfl)

set_option backward.isDefEq.respectTransparency.types false in
/-- Every weakly fair execution of @main from `m` with zero counters terminates, nothing faulting, with every unscoped
    buffer at the last boundary's contents. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W3 m c b) :=
  Pipeline.θ_run_regions_kit (pcfgs (F := F)) adm (pdats m) () cellOf_inj emb₁ defs₀ Variants.none noLv lv0 m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := bdry (W0 m))
    (Tₙ := lastState m)
    (hch := ⟨fun _ => .rfl, fun _ => .rfl, fun _ => .rfl, fun _ => .rfl⟩)
    (hinit := by
      refine Pipeline.initEach noLv lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howe, -, Hgen, -⟩, -⟩
      imodintro
      isplitl [Hh]; · iexact Hh
      isplitl [Hgen]; · iexists _; iexact Hgen
      iexists ∅
      iexact Howe)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh]; · iexact Hh
      iexact HSI)
    (hQ := fun s h c => h c)

/-- The result and the argument read off the run. -/
theorem result : θ_run defs (onTc (τ := τ) (main (F := F))) ⟨m, fun _ => 0, ρ⟩ (fun r => ∀ c : Dev nD,
    r.2.mem ((c.tc : Thread nD τ).loc main_v2) = (dat1 (V2 m) c).arrAt 1 cfg1.N
    ∧ r.2.mem ((c.tc : Thread nD τ).loc main_arg0) = m ((c.tc : Thread nD τ).loc main_arg0)) :=
  (θ_run defs _ _).mono (fun _ h c =>
    ⟨(h c _ (uc_mem main_v2 (by decide))).trans (W3_main_v2 m c),
     (h c _ (uc_mem main_arg0 (by decide))).trans (W3_main_arg0 m c)⟩) (run_main m ρ)

/-- The frame claim's post. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (result m ρ)

end Cert.Kernel.Hist

end
-- ==== Proof.KI.Runs0.lean ====
/-
  Region 0 (the partial-histogram kernel) on one grid point: the three shapes a point can take — the first
  block of a shard (the scratch is zeroed, then the block's counts are added), a middle block (counts added to
  what the point before left), the last block (counts added, then the three count rows written to the output
  block transposed) — each as a triple over whole staging buffers, with what the scratch and the output block
  hold afterwards named as functions of the input block and the scratch before.
-/
import proofs.«110654_j74637941669897_1_alg».proof.Proof.Gen.KernelIdeal.Launch
import proofs.«110654_j74637941669897_1_alg».proof.Proof.Gen.KernelIdeal.Skeleton
import proofs.«110654_j74637941669897_1_alg».proof.Proof.Gen.KernelIdeal.Points
import Idealize.ShloMosaic.Lib.Pipeline.FrameBody
import Idealize.ShloMosaic.Lib.Ring
import Idealize.ShloMosaic.Lib.WritesUnit
import Idealize.ShloMosaic.Lib.Pipeline.Value
import Idealize.ShloMosaic.Lib.Tactic

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The scratch buffer and its count rows -/

/-- The scratch operand: a whole scoped buffer of 8 rows of 256 bins; rows 0, 1, 2 hold the three channels' counts. -/
abbrev scM : Memref sig .tc .vmem S8x256 .f32 := Memref.whole cc0_scratch0
abbrev hscM : (scM).IsWhole := Memref.isWhole_whole _
/-- Row k of the scratch (k = 0, 1, 2), the rows 0..2 together, and the whole scratch, as the body's accesses spell them. -/
abbrev rS0 : Rect S8x256 := Rect.unit (s := S8x256) ![0, 0] S1x256.size inb_S8x256_S1x256_0_0
abbrev rS1 : Rect S8x256 := Rect.unit (s := S8x256) ![1, 0] S1x256.size inb_S8x256_S1x256_1_0
abbrev rS2 : Rect S8x256 := Rect.unit (s := S8x256) ![2, 0] S1x256.size inb_S8x256_S1x256_2_0
abbrev rS012 : Rect S8x256 := Rect.unit (s := S8x256) ![0, 0] S3x256.size inb_S8x256_S3x256_0_0
/-- The lane index 0..255 along the bins, as the body builds it. -/
abbrev iotaV : IVec S8192x256 32 := iota .tc S8192x256 32 [1] iota_S8192x256_d1_w32

/-! ## The body's two conditions, decided over the grid -/

/-- "This is the shard's first block" (the body's first `scf.if`), from the grid coordinates. -/
abbrev condFirst (i : grid0.Coords) : Prop :=
  (Scalar.cmpi .ne (Scalar.extui (Scalar.cmpi .eq (BitVec.ofNat 32 (i 1).val) 0#32)) 0#32) = 1#1
/-- "This is the shard's last block" (the body's second `scf.if`). -/
abbrev condLast (i : grid0.Coords) : Prop := k0_cond2 i = 1#1

theorem hcondFirst : ∀ t : Fin cfg0.N, condFirst (grid0.coords t) ↔ t.val % 1024 = 0 :=
  (by decide +kernel : ∀ t : Fin grid0.N, condFirst (grid0.coords t) ↔ t.val % 1024 = 0)
theorem hcondLast : ∀ t : Fin cfg0.N, condLast (grid0.coords t) ↔ t.val % 1024 = 1023 :=
  (by decide +kernel : ∀ t : Fin grid0.N, condLast (grid0.coords t) ↔ t.val % 1024 = 1023)

/-! ## What one point leaves -/

/-- The zero offsets of a rank-3 (rank-2) whole-block access are the constant-zero offsets. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The scratch after a point that is not a shard's first, from the input block `x` and the scratch before `xs`:
    rows 0, 1, 2 each the row before plus the block's counts for that channel, rows 3..7 as before. -/
def stepB (x : Vec F S1x8192x3 .f32) (xs : Vec F S8x256 .f32) : Vec F S8x256 .f32 :=
  scM.view.read (Elt F) (scM.view.writes (Elt F) (hscM.unread xs)
    [⟨rS2, k0_pay2 (k0_pay5 x) iotaV (k0_pay6 (F := F)) (View.ld xs rS2)⟩,
     ⟨rS1, k0_pay1 (k0_pay8 x (View.ld xs rS1))⟩,
     ⟨rS0, k0_pay7 x (View.ld xs rS0)⟩])
/-- The scratch after a shard's first point: the same over the zeroed scratch. -/
def stepA (x : Vec F S1x8192x3 .f32) : Vec F S8x256 .f32 := stepB x (k0_pay4 (F := F))
/-- The output block after a shard's last point: the three count rows of the scratch after the point, transposed. -/
def outC (x : Vec F S1x8192x3 .f32) (xs : Vec F S8x256 .f32) : Vec F S1x256x3 .f32 :=
  k0_pay3 (View.ld (stepB x xs) rS012)

/-- A one-row access has a single row index. -/
theorem row_idx_zero (j : S1x256.Idx) : (j (0 : Fin 2)).val = 0 := by
  have h : (j (0 : Fin 2)).val < 1 := (j (0 : Fin 2)).isLt
  omega

theorem stepB_row0 (x : Vec F S1x8192x3 .f32) (xs : Vec F S8x256 .f32) :
    View.ld (stepB x xs) rS0 = k0_pay7 x (View.ld xs rS0) := by
  unfold stepB
  funext j
  show scM.view.read (Elt F) _ (rS0.emb j) = _
  have h0 := row_idx_zero j
  rw [View.read_writes_cons_rows_of_not_mem scM.view _ inb_S8x256_S1x256_2_0 _ _ (rS0.emb j) (o := 2) (W := 1) rfl rfl
        (Or.inl (by show 0 + 1 * (j (0 : Fin 2)).val < 2; omega)),
      View.read_writes_cons_rows_of_not_mem scM.view _ inb_S8x256_S1x256_1_0 _ _ (rS0.emb j) (o := 1) (W := 1) rfl rfl
        (Or.inl (by show 0 + 1 * (j (0 : Fin 2)).val < 1; omega))]
  exact View.read_writes_cons_emb scM.view _ rS0 _ _ j
theorem stepB_row1 (x : Vec F S1x8192x3 .f32) (xs : Vec F S8x256 .f32) :
    View.ld (stepB x xs) rS1 = k0_pay1 (k0_pay8 x (View.ld xs rS1)) := by
  unfold stepB
  funext j
  show scM.view.read (Elt F) _ (rS1.emb j) = _
  have h0 := row_idx_zero j
  rw [View.read_writes_cons_rows_of_not_mem scM.view _ inb_S8x256_S1x256_2_0 _ _ (rS1.emb j) (o := 2) (W := 1) rfl rfl
        (Or.inl (by show 1 + 1 * (j (0 : Fin 2)).val < 2; omega))]
  exact View.read_writes_cons_emb scM.view _ rS1 _ _ j
theorem stepB_row2 (x : Vec F S1x8192x3 .f32) (xs : Vec F S8x256 .f32) :
    View.ld (stepB x xs) rS2 = k0_pay2 (k0_pay5 x) iotaV (k0_pay6 (F := F)) (View.ld xs rS2) := by
  unfold stepB
  funext j
  exact View.read_writes_cons_emb scM.view _ rS2 _ _ j
theorem outC_eq (x : Vec F S1x8192x3 .f32) (xs : Vec F S8x256 .f32) :
    outC x xs = k0_pay3 (View.ld (stepB x xs) rS012) := rfl

/-! ## Reading the scratch back through the point's own stores -/

/-- A store through the whole buffer, alone, leaves its payload. -/
theorem read_store_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.ld_unit_zero hz inb _).symm.trans (funext fun j => View.read_writes_cons_emb v f (Rect.unit off S.size inb) w [] j)

/-- A row read back after the whole scratch was stored is that row of the stored payload. -/
theorem readCov_row_whole {o : ℕ} (inb : ∀ a : Fin 2, (![o, 0] : Fin 2 → ℕ) a + S1x256.size a ≤ S8x256.size a)
    (w : Vec F S8x256 .f32) :
    scM.view.readCov [(⟨Rect.unit (s := S8x256) ![0, 0] S8x256.size inb_S8x256_S8x256_0_0, w⟩ : View.Piece (Elt F) S8x256 .f32)]
        (Rect.unit (s := S8x256) ![o, 0] S1x256.size inb).toLoadRect
      = View.ld w (Rect.unit (s := S8x256) ![o, 0] S1x256.size inb) := by
  rw [View.readCov_eq_canon', View.canon_unit_zero zeros2]

/-- A row read back does not see a newer store to another row. -/
theorem readCov_row_skip {o o' : ℕ} (h : o ≠ o')
    (inb : ∀ a : Fin 2, (![o, 0] : Fin 2 → ℕ) a + S1x256.size a ≤ S8x256.size a)
    (inb' : ∀ a : Fin 2, (![o', 0] : Fin 2 → ℕ) a + S1x256.size a ≤ S8x256.size a)
    (w : Vec F S1x256 .f32) (L : List (View.Piece (Elt F) S8x256 .f32)) :
    scM.view.readCov ((⟨Rect.unit (s := S8x256) ![o', 0] S1x256.size inb', w⟩ : View.Piece (Elt F) S8x256 .f32) :: L)
        (Rect.unit (s := S8x256) ![o, 0] S1x256.size inb).toLoadRect
      = scM.view.readCov L (Rect.unit (s := S8x256) ![o, 0] S1x256.size inb).toLoadRect := by
  rw [View.readCov_eq_canon', View.readCov_eq_canon']
  funext j
  refine View.canon_cons_of_not_mem _ L ?_
  rw [Rect.mem_set_unit]
  intro hall
  obtain ⟨hlo, hhi⟩ := hall (0 : Fin 2)
  have hj := row_idx_zero j
  change o' ≤ o + 1 * (j (0 : Fin 2)).val at hlo
  change o + 1 * (j (0 : Fin 2)).val < o' + 1 at hhi
  omega

/-- Every element of rows 0..2 lies in one of the three row stores. -/
theorem rows012_cover (w2 w1 w0 : Vec F S1x256 .f32) (j : rS012.shape.Idx) :
    ∃ p ∈ ([⟨rS2, w2⟩, ⟨rS1, w1⟩, ⟨rS0, w0⟩] : List (View.Piece (Elt F) S8x256 .f32)), rS012.toLoadRect.idx j ∈ p.1.set := by
  have hj0 : (j (0 : Fin 2)).val < 3 := (j (0 : Fin 2)).isLt
  have hj1 : (j (1 : Fin 2)).val < 256 := (j (1 : Fin 2)).isLt
  rcases (by omega : (j (0 : Fin 2)).val = 0 ∨ (j (0 : Fin 2)).val = 1 ∨ (j (0 : Fin 2)).val = 2) with h | h | h
  · refine ⟨⟨rS0, w0⟩, List.mem_cons_of_mem _ (List.mem_cons_of_mem _ List.mem_cons_self), ?_⟩
    rw [Rect.mem_set_unit]
    refine Fin.forall_fin_two.mpr ⟨⟨?_, ?_⟩, ⟨?_, ?_⟩⟩
    · show 0 ≤ 0 + 1 * (j (0 : Fin 2)).val; omega
    · show 0 + 1 * (j (0 : Fin 2)).val < 0 + 1; omega
    · show 0 ≤ 0 + 1 * (j (1 : Fin 2)).val; omega
    · show 0 + 1 * (j (1 : Fin 2)).val < 0 + 256; omega
  · refine ⟨⟨rS1, w1⟩, List.mem_cons_of_mem _ List.mem_cons_self, ?_⟩
    rw [Rect.mem_set_unit]
    refine Fin.forall_fin_two.mpr ⟨⟨?_, ?_⟩, ⟨?_, ?_⟩⟩
    · show 1 ≤ 0 + 1 * (j (0 : Fin 2)).val; omega
    · show 0 + 1 * (j (0 : Fin 2)).val < 1 + 1; omega
    · show 0 ≤ 0 + 1 * (j (1 : Fin 2)).val; omega
    · show 0 + 1 * (j (1 : Fin 2)).val < 0 + 256; omega
  · refine ⟨⟨rS2, w2⟩, List.mem_cons_self, ?_⟩
    rw [Rect.mem_set_unit]
    refine Fin.forall_fin_two.mpr ⟨⟨?_, ?_⟩, ⟨?_, ?_⟩⟩
    · show 2 ≤ 0 + 1 * (j (0 : Fin 2)).val; omega
    · show 0 + 1 * (j (0 : Fin 2)).val < 2 + 1; omega
    · show 0 ≤ 0 + 1 * (j (1 : Fin 2)).val; omega
    · show 0 + 1 * (j (1 : Fin 2)).val < 0 + 256; omega

/-- Rows 0..2 read back after the three row stores are those rows of what the stores left, whatever was there before. -/
theorem readCov_rows012 (f : scM.view.ty.Contents (Elt F)) (w2 w1 w0 : Vec F S1x256 .f32) :
    scM.view.readCov ([⟨rS2, w2⟩, ⟨rS1, w1⟩, ⟨rS0, w0⟩] : List (View.Piece (Elt F) S8x256 .f32)) rS012.toLoadRect
      = View.ld (scM.view.read (Elt F) (scM.view.writes (Elt F) f [⟨rS2, w2⟩, ⟨rS1, w1⟩, ⟨rS0, w0⟩])) rS012 :=
  (View.readAt_writes_of_cover scM.view f _ rS012.toLoadRect (rows012_cover w2 w1 w0)).symm

/-- The input block as the body's whole-block load reads it off the raw contents of its staging buffer. -/
abbrev xLd (arg2 : Memref sig .tc .vmem S1x8192x3 .f32) (harg2 : arg2.IsWhole) (x : Vec F S1x8192x3 .f32) : Vec F S1x8192x3 .f32 :=
  View.ld (arg2.view.read (Elt F) (harg2.unread x)) (Rect.unit (s := S1x8192x3) ![0, 0, 0] S1x8192x3.size inb_S1x8192x3_S1x8192x3_0_0_0)
theorem xLd_eq (arg2 : Memref sig .tc .vmem S1x8192x3 .f32) (harg2 : arg2.IsWhole) (x : Vec F S1x8192x3 .f32) :
    xLd arg2 harg2 x = x := by
  unfold xLd
  rw [harg2.read_unread, View.ld_unit_zero (S := S1x8192x3) zeros3]

/-- What the three row stores leave, over loads spelt through the buffers' raw contents, is `stepB`. -/
theorem scratch_after (arg2 : Memref sig .tc .vmem S1x8192x3 .f32) (harg2 : arg2.IsWhole)
    (x : Vec F S1x8192x3 .f32) (xs : Vec F S8x256 .f32) :
    scM.view.read (Elt F) (scM.view.writes (Elt F) (hscM.unread xs)
      [⟨rS2, k0_pay2 (k0_pay5 (xLd arg2 harg2 x)) iotaV (k0_pay6 (F := F)) (View.ld (scM.view.read (Elt F) (hscM.unread xs)) rS2)⟩,
       ⟨rS1, k0_pay1 (k0_pay8 (xLd arg2 harg2 x) (View.ld (scM.view.read (Elt F) (hscM.unread xs)) rS1))⟩,
       ⟨rS0, k0_pay7 (xLd arg2 harg2 x) (View.ld (scM.view.read (Elt F) (hscM.unread xs)) rS0)⟩])
    = stepB x xs := by
  rw [xLd_eq, hscM.read_unread]
  rfl

/-- The same after the scratch was first stored whole with the zero block: the zero block is what the rows are read from,
    and the stores end at `stepA`, whatever the scratch held. -/
theorem scratch_after_first (arg2 : Memref sig .tc .vmem S1x8192x3 .f32) (harg2 : arg2.IsWhole)
    (x : Vec F S1x8192x3 .f32) (f : scM.view.ty.Contents (Elt F)) :
    scM.view.read (Elt F) (scM.view.writes (Elt F) f
      [⟨rS2, k0_pay2 (k0_pay5 (xLd arg2 harg2 x)) iotaV (k0_pay6 (F := F))
          (scM.view.readCov [(⟨Rect.unit (s := S8x256) ![0, 0] S8x256.size inb_S8x256_S8x256_0_0, k0_pay4 (F := F)⟩ : View.Piece (Elt F) S8x256 .f32)] rS2.toLoadRect)⟩,
       ⟨rS1, k0_pay1 (k0_pay8 (xLd arg2 harg2 x)
          (scM.view.readCov [(⟨Rect.unit (s := S8x256) ![0, 0] S8x256.size inb_S8x256_S8x256_0_0, k0_pay4 (F := F)⟩ : View.Piece (Elt F) S8x256 .f32)] rS1.toLoadRect))⟩,
       ⟨rS0, k0_pay7 (xLd arg2 harg2 x)
          (scM.view.readCov [(⟨Rect.unit (s := S8x256) ![0, 0] S8x256.size inb_S8x256_S8x256_0_0, k0_pay4 (F := F)⟩ : View.Piece (Elt F) S8x256 .f32)] rS0.toLoadRect)⟩,
       ⟨Rect.unit (s := S8x256) ![0, 0] S8x256.size inb_S8x256_S8x256_0_0, k0_pay4 (F := F)⟩])
    = stepA x := by
  have e := hscM.eq_unread (Val := Elt F)
    (f := scM.view.writes (Elt F) f [⟨Rect.unit (s := S8x256) ![0, 0] S8x256.size inb_S8x256_S8x256_0_0, k0_pay4 (F := F)⟩])
    (read_store_whole scM.view f zeros2 inb_S8x256_S8x256_0_0 (k0_pay4 (F := F)))
  rw [xLd_eq, readCov_row_whole inb_S8x256_S1x256_2_0, readCov_row_whole inb_S8x256_S1x256_1_0,
    readCov_row_whole inb_S8x256_S1x256_0_0]
  unfold stepA stepB
  rw [← e]
  rfl

/-! ## The body's triples, one per shape of point -/

/-- A shard's first block (not its last): whatever the scratch held, it ends at `stepA x`; the output block's buffer is untouched. -/
theorem run_first (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : condFirst i) (hc1 : ¬condLast i)
    (x : Vec F S1x8192x3 .f32) (xi : Vec F S1x256x3 .f32) (K : PUnit → sProp 𝕄) :
    iprop(owns (c : Thread nD τ) arg2 fullShare x ∗ owns (c : Thread nD τ) arg3 fullShare xi ∗ (∃ d, owns (c : Thread nD τ) scM fullShare d)
        ∗ (iprop(owns (c : Thread nD τ) arg2 fullShare x ∗ owns (c : Thread nD τ) arg3 fullShare xi ∗ owns (c : Thread nD τ) scM fullShare (stepA x)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _
  isplitr
  swap
  · iexact HS0
  · ipureintro
    sl_unfold_run_names
    simp only [readCov_row_skip (o := 1) (o' := 0) (by decide), readCov_row_skip (o := 2) (o' := 1) (by decide),
      readCov_row_skip (o := 2) (o' := 0) (by decide)]
    exact scratch_after_first arg2 harg2 x fs0

/-- A middle block: the scratch goes from `xs` to `stepB x xs`; the output block's buffer is untouched. -/
theorem run_middle (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : ¬condFirst i) (hc1 : ¬condLast i)
    (x : Vec F S1x8192x3 .f32) (xi : Vec F S1x256x3 .f32) (xs : Vec F S8x256 .f32) (K : PUnit → sProp 𝕄) :
    iprop(owns (c : Thread nD τ) arg2 fullShare x ∗ owns (c : Thread nD τ) arg3 fullShare xi ∗ owns (c : Thread nD τ) scM fullShare xs
        ∗ (iprop(owns (c : Thread nD τ) arg2 fullShare x ∗ owns (c : Thread nD τ) arg3 fullShare xi ∗ owns (c : Thread nD τ) scM fullShare (stepB x xs)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := hscM.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _
  isplitr
  swap
  · iexact HS0
  · ipureintro
    sl_unfold_run_names
    exact scratch_after arg2 harg2 x xs

/-- A shard's last block (not its first): the scratch goes from `xs` to `stepB x xs` and the output block ends at `outC x xs`. -/
theorem run_last (c : Dev nD) (E : Set ℕ) (i : grid0.Coords) (arg2 : Memref sig .tc .vmem S1x8192x3 .f32) (harg2 : arg2.IsWhole)
    (arg3 : Memref sig .tc .vmem S1x256x3 .f32) (harg3 : arg3.IsWhole) (hc0 : ¬condFirst i) (hc1 : condLast i)
    (x : Vec F S1x8192x3 .f32) (xs : Vec F S8x256 .f32) (K : PUnit → sProp 𝕄) :
    iprop(owns (c : Thread nD τ) arg2 fullShare x ∗ (∃ d, owns (c : Thread nD τ) arg3 fullShare d) ∗ owns (c : Thread nD τ) scM fullShare xs
        ∗ (iprop(owns (c : Thread nD τ) arg2 fullShare x ∗ owns (c : Thread nD τ) arg3 fullShare (outC x xs) ∗ owns (c : Thread nD τ) scM fullShare (stepB x xs)) -∗ K ⟨⟩))
      ⊢ wp frame (wpE (defs₀ (F := F)) Variants.none c none) E (cc0__partial_hist_kernel i arg2 harg2 arg3 harg3 scM hscM) K := by
  simp only [cc0__partial_hist_kernel_eq_skeleton]; unfold cc0__partial_hist_kernel_skel
  unfold owns
  iintro ⟨⟨%f0, %hf0, H0⟩, ⟨%d1, %f1, -, H1⟩, ⟨%fs0, %hfs0, HS0⟩, Hk⟩
  obtain rfl := harg2.eq_unread hf0; obtain rfl := hscM.eq_unread hfs0
  sl_exec (disch := first | exact hc0 | exact hc1)
  sl_step
  iapply Hk
  isplitl [H0]
  · iexists _; isplitr; · ipureintro; exact harg2.read_unread _
    iexact H0
  isplitl [H1]
  · iexists _
    isplitr
    swap
    · iexact H1
    · ipureintro
      sl_unfold_run_names
      refine (read_store_whole arg3.view f1 zeros3 _ _).trans ?_
      exact congrArg k0_pay3 ((readCov_rows012 (hscM.unread xs) _ _ _).trans
        (congrArg (fun X => View.ld X rS012) (scratch_after arg2 harg2 x xs)))
  iexists _
  isplitr
  swap
  · iexact HS0
  · ipureintro
    sl_unfold_run_names
    exact scratch_after arg2 harg2 x xs

end Cert.KernelIdeal.Hist

end
-- ==== Proof.KI.Data0.lean ====
/-
  Region 0 over its whole grid of 2 shards × 1024 blocks: what the scratch holds after each point (the running
  counts of the shard so far), what the output block's buffer holds after a shard's last point, the region's
  invariant (the scratch at those running counts between points) and the pipeline's proof data; then the body
  obligation at every point from the three triples.
-/
import proofs.«110654_j74637941669897_1_alg».proof.Proof.KI.Runs0

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running counts -/

/-- The scratch after the body at position `n`: at a shard's first block the block's counts over zero, else the
    block's counts added to what the position before left. -/
def scrAt (c : Dev nD) : (n : ℕ) → n < cfg0.N → Vec F S8x256 .f32
  | 0, hn => stepA (iblk0 V c 0 ⟨0, hn⟩)
  | n + 1, hn =>
    if (n + 1) % 1024 = 0 then stepA (iblk0 V c 0 ⟨n + 1, hn⟩)
    else stepB (iblk0 V c 0 ⟨n + 1, hn⟩) (scrAt c n (Nat.lt_of_succ_lt hn))

/-- The scratch before position `n` (what position `n - 1` left; before the first point a placeholder nothing reads). -/
def scrBefore (c : Dev nD) : (n : ℕ) → n ≤ cfg0.N → Vec F S8x256 .f32
  | 0, _ => k0_pay4 (F := F)
  | n + 1, hn => scrAt V c n hn

/-- The output block's staging buffer after the body at point `t`: the counts transposed. Meaningful at a shard's
    last block, the only points that store it and write it back; elsewhere the window is idle and nothing reads this. -/
def outAt (c : Dev nD) (t : Fin cfg0.N) : Vec F S1x256x3 .f32 :=
  outC (iblk0 V c 0 t) (scrBefore V c t.val (Nat.le_of_lt t.isLt))

theorem scrAt_first (c : Dev nD) (t : Fin cfg0.N) (h : t.val % 1024 = 0) :
    scrAt V c t.val t.isLt = stepA (iblk0 V c 0 t) := by
  obtain ⟨n, hn⟩ := t
  cases n with
  | zero => rfl
  | succ n => exact if_pos h

theorem scrAt_later (c : Dev nD) (t : Fin cfg0.N) (h : ¬ t.val % 1024 = 0) :
    scrAt V c t.val t.isLt = stepB (iblk0 V c 0 t) (scrBefore V c t.val (Nat.le_of_lt t.isLt)) := by
  obtain ⟨n, hn⟩ := t
  cases n with
  | zero => exact absurd (Nat.zero_mod _) h
  | succ n => exact if_neg h

/-! ## The invariant and the proof data -/

/-- The region invariant before position `n`: before the first point the class's (every scoped buffer that is no
    staging buffer at anything, the generator register at some state); afterwards the same with the scratch at the
    running counts the position before left. -/
def PhiS (c : Dev nD) : (n : ℕ) → n ≤ cfg0.N → sProp 𝕄
  | 0, _ => Pipeline.ΦA spec0 c
  | n + 1, hn => iprop(iprop(owns (c : Thread nD τ) scM fullShare (scrAt V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r))

/-- The proof data of pipeline 0 on core `c`: the arrays as the region finds them; after the body the input's buffer at
    its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outAt V c t := by dsimp only [dat0]

/-! ## The invariant, arm by arm -/

/-- The class invariant with the scratch as an operand owned at some contents. -/
theorem PhiA0_eq (c : Dev nD) :
    (Pipeline.ΦA spec0 c : sProp 𝕄)
      = iprop(iprop((∃ d, owns (c : Thread nD τ) scM fullShare d)
          ∗ (∃ f : Buf (Elt F) ((c : Thread nD τ).loc cc1_stg0_0), ((c : Thread nD τ).loc cc1_stg0_0) ↦{fullShare} f)
          ∗ (∃ f : Buf (Elt F) ((c : Thread nD τ).loc cc1_stg1_0), ((c : Thread nD τ).loc cc1_stg1_0) ↦{fullShare} f))
        ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS V c n h = Pipeline.ΦA spec0 c := by
  subst hz; rfl

/-- After position `n`: the scratch at that position's running counts. -/
theorem PhiS_succ (c : Dev nD) (n : ℕ) (hn : n < cfg0.N) :
    PhiS V c (n + 1) hn = iprop(iprop(owns (c : Thread nD τ) scM fullShare (scrAt V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r)) := rfl

/-- Before a position that is not the first: the scratch at what the position before left. -/
theorem PhiS_pos (c : Dev nD) (n : ℕ) (h : n ≤ cfg0.N) (hz : n ≠ 0) :
    PhiS V c n h = iprop(iprop(owns (c : Thread nD τ) scM fullShare (scrBefore V c n h)
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f))
      ∗ (∃ r, prngReg c r)) := by
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## Facts about the grid -/

/-- The input window is live at every point; -/
theorem liveAt0_0 : ∀ t : Fin cfg0.N, cfg0.idle 0 (grid0.coords t) = false := by decide +kernel
/-- the output window is idle at every point that is not a shard's last, -/
theorem idleAt0_1 : ∀ t : Fin cfg0.N, ¬ t.val % 1024 = 1023 → cfg0.idle 1 (grid0.coords t) = true := by decide +kernel
/-- live at a shard's last, -/
theorem liveAt0_1 : ∀ t : Fin cfg0.N, t.val % 1024 = 1023 → cfg0.idle 1 (grid0.coords t) = false := by decide +kernel
/-- and written back nowhere else. -/
theorem noFlush0_1 (t : Fin cfg0.N) (h : ¬ t.val % 1024 = 1023) : (cfg0.win 1).flush t = false :=
  Bool.eq_false_iff.mpr fun hf => h ((flush0_1 t).mp hf)

/-- Each window's current staging memref at point `t`, and its wholeness. -/
abbrev ms0_0 (t : Fin cfg0.N) : Memref sig .tc .vmem S1x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x3 .f32 := win0_1.stage (cfg0.slots t 1)
abbrev hs0_1 (t : Fin cfg0.N) : (ms0_1 t).IsWhole := hstage0_1 ((cfg0.slots t 1).cast nbuf0_1)

/-- The input's current staging buffer holds its block at every point: the window is fetched whole and never idle,
    and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block. A point is a shard's first block, a middle block or
    its last (a shard has 1024 blocks, so never both first and last). At a first block the scratch is whatever the
    invariant holds (anything before the very first point, the previous shard's final counts otherwise) and ends
    at the block's counts over zero; at the others it goes from the running counts before to the running counts
    after. The output's buffer is handed back as found except at a last block, where it ends at the transposed
    counts. The two other scoped buffers and the generator register pass through; the core owes nothing. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 2048 := lt_of_lt_of_eq t.isLt (show cfg0.N = 2048 from N_0)
  by_cases h0 : t.val % 1024 = 0
  · have h1 : ¬ t.val % 1024 = 1023 := by omega
    rw [Dat.leavesExact_idle (dat0 V c) 1 t (idleAt0_1 t h1) (noFlush0_1 t h1)]
    rw [scrAt_first V c t h0]
    by_cases hz : t.val = 0
    · rw [PhiS_castSucc V c t, PhiS_zero V c _ _ hz, PhiA0_eq]
      iintro ⟨⟨⟨HS0, HE1, HE2⟩, Hg⟩, Ho, ⟨%d0, H0⟩, ⟨%d1, H1⟩⟩
      iapply (run_first c Set.univ (grid0.coords t) _ _ _ _ ((hcondFirst t).mpr h0) (fun h => h1 ((hcondLast t).mp h))
        (iblk0 V c 0 t) ((dat0 V c).before 1 t d1) _)
      isplitl [H0]; · iexact H0
      isplitl [H1]; · iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1
    · rw [PhiS_castSucc V c t, PhiS_pos V c _ _ hz]
      iintro ⟨⟨⟨HS0, HE1, HE2⟩, Hg⟩, Ho, ⟨%d0, H0⟩, ⟨%d1, H1⟩⟩
      iapply (run_first c Set.univ (grid0.coords t) _ _ _ _ ((hcondFirst t).mpr h0) (fun h => h1 ((hcondLast t).mp h))
        (iblk0 V c 0 t) ((dat0 V c).before 1 t d1) _)
      isplitl [H0]; · iexact H0
      isplitl [H1]; · iexact H1
      isplitl [HS0]; · iexists _; iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1
  · have hz : t.val ≠ 0 := fun e => h0 (by rw [e])
    rw [scrAt_later V c t h0]
    rw [PhiS_castSucc V c t, PhiS_pos V c _ _ hz]
    by_cases h1 : t.val % 1024 = 1023
    · rw [show (dat0 V c).leavesExact 1 t = owns (c : Thread nD τ) (ms0_1 t) fullShare ((dat0 V c).after 1 t) from by
        unfold Dat.leavesExact; rw [liveAt0_1 t h1], after0_1]
      unfold outAt
      iintro ⟨⟨⟨HS0, HE1, HE2⟩, Hg⟩, Ho, ⟨%d0, H0⟩, ⟨%d1, H1⟩⟩
      iapply (run_last c Set.univ (grid0.coords t) _ _ _ _ (fun h => h0 ((hcondFirst t).mp h)) ((hcondLast t).mpr h1)
        (iblk0 V c 0 t) (scrBefore V c t.val (Nat.le_of_lt t.isLt)) _)
      isplitl [H0]; · iexact H0
      isplitl [H1]; · iexists _; iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexact H1
    · rw [Dat.leavesExact_idle (dat0 V c) 1 t (idleAt0_1 t h1) (noFlush0_1 t h1)]
      iintro ⟨⟨⟨HS0, HE1, HE2⟩, Hg⟩, Ho, ⟨%d0, H0⟩, ⟨%d1, H1⟩⟩
      iapply (run_middle c Set.univ (grid0.coords t) _ _ _ _ (fun h => h0 ((hcondFirst t).mp h)) (fun h => h1 ((hcondLast t).mp h))
        (iblk0 V c 0 t) ((dat0 V c).before 1 t d1) (scrBefore V c t.val (Nat.le_of_lt t.isLt)) _)
      isplitl [H0]; · iexact H0
      isplitl [H1]; · iexact H1
      isplitl [HS0]; · iexact HS0
      iintro ⟨H0, H1, HS0⟩
      isplitl [HS0 HE1 HE2 Hg]
      · isplitl [HS0 HE1 HE2]
        · isplitl [HS0]; · iexact HS0
          isplitl [HE1]; · iexact HE1
          iexact HE2
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2048 := N_0; omega), PhiA0_eq]
  iintro ⟨⟨HS0, HE1, HE2⟩, Hg⟩
  isplitl [HS0 HE1 HE2]
  · isplitl [HS0]; · iexists _; iexact HS0
    isplitl [HE1]; · iexact HE1
    iexact HE2
  iexact Hg

end Cert.KernelIdeal.Hist

end
-- ==== Proof.KI.Region1.lean ====
/-
  Region 1 (the finalize kernel), a gridless pipeline of one point: the two shards' partial histograms are
  loaded whole, added, each channel's total taken over the bins, and the quotient stored whole.
-/
import proofs.«110654_j74637941669897_1_alg».proof.Proof.Gen.KernelIdeal.Launch
import proofs.«110654_j74637941669897_1_alg».proof.Proof.Gen.KernelIdeal.Skeleton
import proofs.«110654_j74637941669897_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it (`V`): the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: shard 0's and shard 1's partial histogram in the input, the whole output. -/
abbrev rP0 : Rect S2x256x3 := Rect.unit (s := S2x256x3) ![0, 0, 0] S1x256x3.size inb_S2x256x3_S1x256x3_0_0_0
abbrev rP1 : Rect S2x256x3 := Rect.unit (s := S2x256x3) ![1, 0, 0] S1x256x3.size inb_S2x256x3_S1x256x3_1_0_0
abbrev rOut : Rect S256x3 := Rect.unit (s := S256x3) ![0, 0] S256x3.size inb_S256x3_S256x3_0_0

/-- What the body leaves in the output's staging buffer, from the input's: its one store. -/
def out1 (x : Vec F S2x256x3 .f32) : Vec F S256x3 .f32 :=
  View.canon [⟨rOut, k1_pay1 (View.ld x rP0) (View.ld x rP1)⟩]

/-- The proof data of pipeline 1 on core `c`: the class's invariant, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1 (iblk1 V c 0 t) := by dsimp only [dat1]

/-- The one store is of the whole output, so it covers every index. -/
theorem cover1 (p : Vec F S256x3 .f32) (y : S256x3.Idx) :
    ∃ pc ∈ ([⟨rOut, p⟩] : List (View.Piece (Elt F) S256x3 .f32)), y ∈ pc.1.set :=
  View.cover_of_tiled [⟨rOut, p⟩] S256x3.size (by rfl) y

set_option maxHeartbeats 1000000 in
/-- The kernel on whole memrefs, the input's at contents `x` and the output's at anything: it leaves the input
    as it was and the output at `out1 x`. -/
theorem sound_kernel1 (c : Dev nD) (E : Set ℕ) (arg0 : Memref sig .tc .vmem S2x256x3 .f32) (harg0 : arg0.IsWhole)
    (arg1 : Memref sig .tc .vmem S256x3 .f32) (harg1 : arg1.IsWhole)
    (x : Vec F S2x256x3 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (out1 x)) -∗ K ⟨⟩))
      ⊢ wp frame (wpE (defs₀ (F := F)) Variants.none c none) E (cc1__finalize_kernel arg0 harg0 arg1 harg1) K := by
  simp only [cc1__finalize_kernel_eq_skeleton]; unfold cc1__finalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The input's staging buffer holds the input array's one block — the whole array — when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's memref holds the whole input array, so the kernel's triple applies; the
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at the one point. -/
theorem body_obligation1 (c : Dev nD) : BodyObligation (dat1 (F := F) V c) (defs₀ (F := F)) Variants.none () Set.univ := fun t => by
  rw [bigSep_W1, bigSep_W1]
  exact sound_body1 V c t

end Cert.KernelIdeal.Hist

end
-- ==== Proof.KI.Launch.lean ====
/-
  The whole program: the host reshape, then region 0, then region 1. The buffers' contents at each boundary, the two
  regions as segments over those contents, and the run: every weakly fair execution terminates and every unscoped
  buffer ends at the last boundary's contents — the argument as launched, the result at what region 1's one
  write-back leaves.
-/
import proofs.«110654_j74637941669897_1_alg».proof.Proof.KI.Data0
import proofs.«110654_j74637941669897_1_alg».proof.Proof.KI.Region1
import proofs.«110654_j74637941669897_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host reshape (region 0's entry). -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what the pipeline's write-backs leave, every other buffer as entered (region 1's entry). -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N

/-- A region leaves each of its windows' arrays at the fold of the pipeline's write-backs, -/
theorem W2_at_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W3_at_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
/-- and every buffer that is no window's array as it found it. -/
theorem W2_off_arr (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_off_arr (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- Region 0 reads the argument reshaped. -/
theorem V1_main_v0 (c : Dev nD) :
    V1 m c main_v0 = shapeCast S2x8388608x3 (m ((c : Thread nD τ).loc main_arg0)) shapeCasts_S64x512x512x3_S2x8388608x3 := by
  show StableHlo.after hostOps0 _ (Proc.devRef .tc main_v0) = _
  after_results
  rfl
/-- Region 1 reads what region 0's write-backs left in the partial histograms. -/
theorem V2_main_v1 (c : Dev nD) : V2 m c main_v1 = (dat0 (V1 m) c).arrAt 1 cfg0.N := W2_at_arr m c 1
/-- The result ends at what region 1's write-back left. -/
theorem W3_main_v2 (c : Dev nD) : W3 m c (Proc.devRef .tc main_v2) = (dat1 (V2 m) c).arrAt 1 cfg1.N := W3_at_arr m c 1
/-- The argument ends as launched: it is no window's array of either region, and the reshape writes only its result. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_off_arr m c main_arg0 (by decide)
    _ = W1 m c (Proc.devRef .tc main_arg0) := W2_off_arr m c main_arg0 (by decide)
    _ = W0 m c (Proc.devRef .tc main_arg0) := by
      unfold W1; exact StableHlo.after_of_writes_sub hostOps0 _ hostOps0_writes (by decide)
    _ = m ((c : Thread nD τ).loc main_arg0) := rfl

/-! ## The two pipelines' proof data and the thread state between segments -/

/-- Each pipeline's proof data at the contents its region is entered with: region 0 after the reshape, region 1
    after region 0. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

/-- No core owes another anything, so no semaphore carries a level. -/
abbrev noLv : GSem nD τ sig → Finset Unit := fun _ => ∅
abbrev lv0 : GSem nD τ sig → Unit → ℕ := fun _ _ => 0

/-- The generator register at some state, -/
abbrev gen (c : Dev nD) : sProp 𝕄 := iprop(∃ r, prngReg c r)
/-- the core owing nothing, -/
abbrev owesNone (c : Dev nD) : sProp 𝕄 := iprop(∃ W, owes (c : Thread nD τ) (0 : CellTallies nD τ sig Unit) W)
/-- and the two together: what a core holds beside its unscoped buffers at every boundary. -/
abbrev side (c : Dev nD) : sProp 𝕄 := iprop(gen (F := F) c ∗ owesNone (F := F) c)

/-- Core `c` between two segments: every unscoped buffer whole at the boundary's contents `W c`, beside `side`. -/
abbrev bdry (W : Dev nD → Valuation τ sig (Elt F)) (c : Dev nD) : sProp 𝕄 :=
  iprop(StableHlo.held (c : Thread nD τ) (Pipeline.ucRefs τ sig) (W c) ∗ side (F := F) c)

/-- An unscoped reference of the TensorCore is among those held. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The reshape allocates nothing. -/
theorem reshape_fresh : (hostOps0 : List (HloOp τ sig (Elt F))).Forall fun op => op.fresh = ∅ := hostOps0_fresh

/-- The host reshape as a segment from the launch contents: it leaves the buffers at `W1`. -/
abbrev host0 : Pipeline.HostSeg (Name := ℕ) (U := UR sig nD τ) (pcfgs (F := F)) defs₀ Variants.none noLv lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp reshape_fresh) op h) (W0 m) (side (F := F))

/-! ## The regions as segments -/

/-- Region 0's arrays at the fold of its write-backs are `V2` there, and `V2` is `V1` elsewhere. -/
theorem exit0_arr (c : Dev nD) (w : Fin cfg0.W) : (dat0 (V1 m) c).arrAt w cfg0.N = V2 m c (Pipeline.arrRef spec0 w) :=
  (W2_at_arr m c w).symm
theorem exit0_rest (c : Dev nD) : ∀ b, b ∉ Finset.univ.image (Pipeline.arrRef spec0) → V2 m c b = V1 m c b :=
  fun b hb => W2_off_arr m c b fun w e => hb (Finset.mem_image.mpr ⟨w, Finset.mem_univ _, e⟩)
/-- The same of region 1 between `V2` and the last contents. -/
theorem exit1_arr (c : Dev nD) (w : Fin cfg1.W) :
    (dat1 (V2 m) c).arrAt w cfg1.N = (fun b : Ref sig .tc => W3 m c b) (Pipeline.arrRef spec1 w) :=
  (W3_at_arr m c w).symm
theorem exit1_rest (c : Dev nD) :
    ∀ b, b ∉ Finset.univ.image (Pipeline.arrRef spec1) → (fun b : Ref sig .tc => W3 m c b) b = V2 m c b :=
  fun b hb => W3_off_arr m c b fun w e => hb (Finset.mem_image.mpr ⟨w, Finset.mem_univ _, e⟩)

set_option backward.isDefEq.respectTransparency.types false in
/-- REGION 0 from the contents `W1` to `W2`. Entering, the windows' arrays are taken out of the unscoped buffers and
    the rest bypasses the region; the generator register and the scoped buffers no window stages make the class
    invariant, which is the region's own invariant before the first point; leaving, the region's invariant after the
    last point forgets the scratch's contents and gives the class invariant back, and the arrays at the fold of the
    write-backs rejoin the rest. Nothing is owed and the kernel has no semaphore of its own. -/
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noLv lv0 0 fun _ _ => rfl
  pre := bdry (W1 m)
  post := bdry (W2 m)
  X := gen
  Y := gen
  Z c := Pipeline.unscopedRest (Ix := Unit) (Name := ℕ) (U := UR sig nD τ) (Lvl := ℕ) spec0 c (V1 m c)
  hentry c := by
    rw [Pipeline.ownSems0_none]
    have htake := Pipeline.arrays_of_unscopedBufs (p := 0) (pcfgs (F := F)) adm (pdats m) launch0.win launch0.arr_whole c
      ((pdats m 0 c).share_full fun _ => rfl) (V1 m c) fun _ => rfl
    rw [Pipeline.unscopedBufs_held] at htake
    iintro ⟨⟨Hbufs, Hgen, Howe⟩, -, -⟩
    ihave Hs := htake $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%W, Howe⟩
      iexists W
      isplitr; · ipureintro; exact fun _ _ => Or.inl trivial
      iexact Howe
    isplitl [Hgen]; · iexact Hgen
    iexact Hby
  hin c := by
    refine BIBase.Entails.trans ?_ (hin0 (V1 m) c)
    unfold Pipeline.ΦA
    iintro ⟨Hgen, -, Hsc⟩
    isplitl [Hsc]; · iexact Hsc
    iexact Hgen
  hout c := by
    rw [Pipeline.ownSems0_none]
    refine BIBase.Entails.trans (hout0 (V1 m) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hput
    iintro ⟨Harr, Howe, Hgen, Hby⟩
    imodintro
    isplitl [Harr Hby]
    · iapply hput
      isplitl [Harr]; · iexact Harr
      iexact Hby
    isplitl [Hgen]; · iexact Hgen
    unfold Pipeline.Dat.owesAt Pipeline.owesWithin
    icases Howe with ⟨%W, -, Howe⟩
    iexists W
    iexact Howe

/-- The last thread state short of the core owing nothing: every unscoped buffer at `W3`, the generator register at
    some state. -/
abbrev lastState (c : Dev nD) : sProp 𝕄 :=
  iprop(StableHlo.held (c : Thread nD τ) (Pipeline.ucRefs τ sig) (W3 m c) ∗ gen (F := F) c)

set_option backward.isDefEq.respectTransparency.types false in
/-- REGION 1 from the contents `W2` to `W3`: the same exchange, its invariant the class's throughout. -/
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noLv lv0 1 fun _ _ => rfl
  pre := bdry (W2 m)
  post c := iprop(lastState m c ∗ owesNone (F := F) c)
  X := gen
  Y := gen
  Z c := Pipeline.unscopedRest (Ix := Unit) (Name := ℕ) (U := UR sig nD τ) (Lvl := ℕ) spec1 c (V2 m c)
  hentry c := by
    rw [Pipeline.ownSems0_none]
    have htake := Pipeline.arrays_of_unscopedBufs (p := 1) (pcfgs (F := F)) adm (pdats m) launch1.win launch1.arr_whole c
      ((pdats m 1 c).share_full fun _ => rfl) (V2 m c) fun _ => rfl
    rw [Pipeline.unscopedBufs_held] at htake
    iintro ⟨⟨Hbufs, Hgen, Howe⟩, -, -⟩
    ihave Hs := htake $$ Hbufs
    icases Hs with ⟨Harr, Hby⟩
    imodintro
    isplitl [Harr]; · iexact Harr
    isplitr
    · unfold Pipeline.prefHeld
      rw [show (Finset.univ : Finset (Fin 0)) = ∅ from rfl, BI.bigSep_empty]
      iempintro
    isplitl [Howe]
    · unfold Pipeline.Dat.owesAt Pipeline.owesWithin
      icases Howe with ⟨%W, Howe⟩
      iexists W
      isplitr; · ipureintro; exact fun _ _ => Or.inl trivial
      iexact Howe
    isplitl [Hgen]; · iexact Hgen
    iexact Hby
  hin c := by
    rw [show (pdats m 1 c).Φ 0 = Pipeline.ΦA spec1 c from rfl]
    unfold Pipeline.ΦA
    iintro ⟨Hgen, -, Hsc⟩
    isplitl [Hsc]; · iexact Hsc
    iexact Hgen
  hout c := by
    rw [Pipeline.ownSems0_none, show (pdats m 1 c).Φ (Fin.last _) = Pipeline.ΦA spec1 c from rfl]
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (fun b : Ref sig .tc => W3 m c b) ((pdats m 1 c).arrAt · cfg1.N) (exit1_arr m c) (exit1_rest m c)
    rw [Pipeline.unscopedBufs_held] at hput
    iintro ⟨Harr, Howe, Hgen, Hby⟩
    imodintro
    isplitl [Harr Hby Hgen]
    · isplitl [Harr Hby]
      · iapply hput
        isplitl [Harr]; · iexact Harr
        iexact Hby
      iexact Hgen
    unfold Pipeline.Dat.owesAt Pipeline.owesWithin
    icases Howe with ⟨%W, -, Howe⟩
    iexists W
    iexact Howe

/-! ## The run -/

/-- @main's three segments in its order. -/
abbrev segs : List (Pipeline.Seg (pcfgs (F := F)) adm (pdats m) () defs₀ Variants.none noLv lv0) :=
  [.host (host0 m), .region (reg0 m), .region (reg1 m)]

/-- @main is the run of those segments. -/
theorem main_is_segs (c : Dev nD) : main (F := F) c = Pipeline.Seg.run (segs m) :=
  (main_chain c).trans (by chain_rfl)

set_option backward.isDefEq.respectTransparency.types false in
/-- Every weakly fair execution of @main from `m` with zero counters terminates, nothing faulting, with every unscoped
    buffer at the last boundary's contents. -/
theorem run_main : θ_run defs (onTc (τ := τ) (main (F := F))) ⟨m, fun _ => 0, ρ⟩ (fun r => ∀ c : Dev nD,
    ∀ b ∈ Pipeline.ucRefs τ sig, r.2.mem (((c : Thread nD τ)).1, b) = W3 m c b) :=
  Pipeline.θ_run_regions_kit (pcfgs (F := F)) adm (pdats m) () cellOf_inj emb₁ defs₀ Variants.none noLv lv0 m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := bdry (W0 m))
    (Tₙ := lastState m)
    (hch := ⟨fun _ => .rfl, fun _ => .rfl, fun _ => .rfl, fun _ => .rfl⟩)
    (hinit := by
      refine Pipeline.initEach noLv lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howe, -, Hgen, -⟩, -⟩
      imodintro
      isplitl [Hh]; · iexact Hh
      isplitl [Hgen]; · iexists _; iexact Hgen
      iexists ∅
      iexact Howe)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh]; · iexact Hh
      iexact HSI)
    (hQ := fun s h c => h c)

/-- The result and the argument read off the run. -/
theorem result : θ_run defs (onTc (τ := τ) (main (F := F))) ⟨m, fun _ => 0, ρ⟩ (fun r => ∀ c : Dev nD,
    r.2.mem ((c.tc : Thread nD τ).loc main_v2) = (dat1 (V2 m) c).arrAt 1 cfg1.N
    ∧ r.2.mem ((c.tc : Thread nD τ).loc main_arg0) = m ((c.tc : Thread nD τ).loc main_arg0)) :=
  (θ_run defs _ _).mono (fun _ h c =>
    ⟨(h c _ (uc_mem main_v2 (by decide))).trans (W3_main_v2 m c),
     (h c _ (uc_mem main_arg0 (by decide))).trans (W3_main_arg0 m c)⟩) (run_main m ρ)

/-- The frame claim's post. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (result m ρ)

end Cert.KernelIdeal.Hist

end
-- ==== Proof.Spec.lean ====
/-
  The mathematics both programs compute, over the extended reals. A sample x falls in bin
  clamp(floor(256·x), 0, 255); for each of the three channels the 16,777,216 samples of the channel are
  counted per bin, and each count is divided by the channel's total over the 256 bins.
-/
import Idealize.ShloMosaic.PureOps.Ideal
import Idealize.ShloMosaic.PureOps.Ideal.Laws
import Idealize.ShloMosaic.Lib.ValueIdx

noncomputable section

namespace Hist

open Idealize.ShloMosaic

/-- The samples as rows of three channels. -/
abbrev SPix : Shape := ⟨2, ![16777216, 3]⟩
/-- The histogram: 256 bins by three channels. -/
abbrev SHist : Shape := ⟨2, ![256, 3]⟩

/-- The bin of one sample, as the 32-bit word both programs compute: 256·x, rounded down, converted to a signed
    word, clamped to 0..255. -/
def bin (x : Ideal .f32) : BitVec 32 :=
  IntOp.minsi 255#32 (IntOp.maxsi 0#32 (FloatOps.fptosi (F := Ideal) (φ := .f32) 32
    (FloatOps.floor (F := Ideal) (φ := .f32) (FloatOps.mulf (F := Ideal) (φ := .f32) x (FloatOps.ofBits (F := Ideal) .f32 0x43800000#32)))))

/-- One if the proposition holds, else zero. -/
def ind (p : Prop) [Decidable p] : EReal := if p then 1 else 0

/-- How many of channel `c`'s samples fall in bin `b`. -/
def count (P : SPix.Idx → Ideal .f32) (b : Fin 256) (c : Fin 3) : EReal :=
  ∑ n : Fin 16777216, ind (bin (P (ValueIdx.ix2 n c)) = BitVec.ofNat 32 b.val)

/-- The normalized histogram: each count over its channel's total. -/
def normHist (P : SPix.Idx → Ideal .f32) : SHist.Idx → Ideal .f32 := fun j =>
  FloatOps.divf (F := Ideal) (φ := .f32) (count P (j 0) (j 1)) (∑ b : Fin 256, count P b (j 1))

end Hist

end
-- ==== Proof.KI.PayloadMath.lean ====
/-
  The payloads of the two kernels read at an index, over the extended reals: a count row after a block is the row
  before plus, per bin, the number of the block's samples of that channel falling in the bin (the one-hot matrix
  of "sample k is in bin b" summed over k by the product with a row of ones); the output block is the count rows
  transposed; the finalize step divides the sum of the two shards' counts by its total over the bins.
-/
import proofs.«110654_j74637941669897_1_alg».proof.Proof.KI.Runs0
import proofs.«110654_j74637941669897_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hist

open Idealize.ShloMosaic Idealize.ShloMosaic.ValueIdx Cert.KernelIdeal Cert.KernelIdeal.Gen

/-- How many of the block's 8192 samples of channel `c` fall in bin `b`. -/
def blockCount (x : Vec Ideal S1x8192x3 .f32) (c : Fin 3) (b : Fin 256) : EReal :=
  ∑ k : Fin 8192, _root_.Hist.ind (_root_.Hist.bin (x (ix3 (0 : Fin 1) k c)) = BitVec.ofNat 32 b.val)

/-! ## Words: the equality bit as a number -/

/-- The one-bit word of "a = w", widened to 32 bits and read as a signed integer, is 1 where the two words agree
    and 0 where they differ. -/
theorem toInt_eqBit (a w : BitVec 32) :
    ((IntOp.cmpi .eq a w).setWidth 32).toInt = if a = w then 1 else 0 := by
  by_cases h : a = w
  · have e : (a == w) = true := beq_iff_eq.2 h
    rw [if_pos h]
    show ((BitVec.ofBool (a == w)).setWidth 32).toInt = 1
    rw [e]; rfl
  · have e : (a == w) = false := beq_eq_false_iff_ne.2 h
    rw [if_neg h]
    show ((BitVec.ofBool (a == w)).setWidth 32).toInt = 0
    rw [e]; rfl

/-- The bf16 word 0x3F80 is the number one. -/
theorem ofBits_one_bf16 : Ideal.ofBits .bf16 0x3F80#16 = 1 := by
  simp [Ideal.ofBits, Ideal.ieee]
  rw [← EReal.coe_mul]
  norm_num

/-! ## The clamped bin words of a block -/

/-- The block's word at sample k, channel c is the bin of that sample. -/
theorem pay5_apply (x : Vec Ideal S1x8192x3 .f32) (k : Fin 8192) (c : Fin 3) :
    k0_pay5 (F := Ideal) x (ix2 k c) = _root_.Hist.bin (x (ix3 (0 : Fin 1) k c)) := by
  unfold k0_pay5 _root_.Hist.bin
  show IntOp.minsi 255#32 (IntOp.maxsi 0#32 (FloatOps.fptosi (F := Ideal) (φ := .f32) 32 (FloatOps.floor (F := Ideal) (φ := .f32)
    (FloatOps.mulf (F := Ideal) (φ := .f32) (shapeCast S8192x3 x shapeCasts_S1x8192x3_S8192x3 (ix2 k c)) (Scalar.ofBits (F := Ideal) .f32 0x43800000#32))))) = _
  rw [shapeCast_1ab_ab_apply]

/-! ## One column of the words against the lane index -/

/-- Column c of the words, copied along the 256 lanes, reads the word of sample k at every lane. -/
theorem column_apply (w : IVec S8192x3 32) (o : Nat) (h : S8192x3.Slices ![0, o] S8192x1) (c : Fin 3) (hc : c.val = o)
    (k : Fin 8192) (b : Fin 256) :
    broadcastTo S8192x256 (shapeCast S8192x1 (extractStridedSlice S8192x1 ![0, o] w h) shapeCasts_S8192x1_S8192x1)
        broadcasts_S8192x1_S8192x256 (ix2 k b) = w (ix2 k c) := by
  rw [shapeCast_self]
  rw [broadcastTo_apply _ broadcasts_S8192x1_S8192x256 (ix2 k b) (ix2 k (0 : Fin 1))
    (fun a => match a with | ⟨0, _⟩ => rfl | ⟨1, _⟩ => rfl)]
  exact slice2_axis1_apply o w h k (0 : Fin 1) c (by rw [hc]; rfl)

/-- The lane index at (k, b) is the word b. -/
theorem iotaV_apply (k : Fin 8192) (b : Fin 256) : iotaV (ix2 k b) = BitVec.ofNat 32 b.val :=
  iota_single_apply .tc S8192x256 32 1 iota_S8192x256_d1_w32 (ix2 k b)

/-- The one-hot matrix of column c: at (k, b) it is 1 where sample k's word is b and 0 elsewhere. -/
theorem oneHot_apply (w : IVec S8192x3 32) (o : Nat) (h : S8192x3.Slices ![0, o] S8192x1) (c : Fin 3) (hc : c.val = o)
    (k : Fin 8192) (b : Fin 256) :
    (truncf .bf16 (sitofp (F := Ideal) .f32 (extui 32 (cmpi .eq
        (broadcastTo S8192x256 (shapeCast S8192x1 (extractStridedSlice S8192x1 ![0, o] w h) shapeCasts_S8192x1_S8192x1)
          broadcasts_S8192x1_S8192x256) iotaV) natLt_1_32)) bitsLt_bf16_f32 : FVec Ideal S8192x256 .bf16) (ix2 k b)
      = _root_.Hist.ind (w (ix2 k c) = BitVec.ofNat 32 b.val) := by
  show ((((IntOp.cmpi .eq (broadcastTo S8192x256 (shapeCast S8192x1 (extractStridedSlice S8192x1 ![0, o] w h) shapeCasts_S8192x1_S8192x1)
          broadcasts_S8192x1_S8192x256 (ix2 k b)) (iotaV (ix2 k b))).setWidth 32).toInt : ℝ) : EReal) = _
  rw [column_apply w o h c hc k b, iotaV_apply, toInt_eqBit]
  unfold _root_.Hist.ind
  split <;> simp

/-! ## The product of a row of ones with a matrix: the column sums -/

/-- The left operand's row at an output index is the output's row. -/
theorem ones_lhs_axis0 (j : S1x256.Idx) (q : dot_S1x8192_S8192x256_S1x256_1_0_0_1_n_n.contr.Idx) :
    (dot_S1x8192_S8192x256_S1x256_1_0_0_1_n_n.lhsIdx j q 0).val = (j 0).val := by
  simp [DotDims.lhsIdx, dot_S1x8192_S8192x256_S1x256_1_0_0_1_n_n]
  have := idx2_lt0 j
  omega
/-- The left operand's column is the contracted position. -/
theorem ones_lhs_axis1 (j : S1x256.Idx) (q : dot_S1x8192_S8192x256_S1x256_1_0_0_1_n_n.contr.Idx) :
    (dot_S1x8192_S8192x256_S1x256_1_0_0_1_n_n.lhsIdx j q 1).val = (q ⟨0, by decide⟩).val :=
  dot_S1x8192_S8192x256_S1x256_1_0_0_1_n_n.lhsIdx_val_of_single (cl := 1) rfl j q
/-- The right operand's row is the contracted position. -/
theorem ones_rhs_axis0 (j : S1x256.Idx) (q : dot_S1x8192_S8192x256_S1x256_1_0_0_1_n_n.contr.Idx) :
    (dot_S1x8192_S8192x256_S1x256_1_0_0_1_n_n.rhsIdx j q 0).val = (q ⟨0, by decide⟩).val :=
  dot_S1x8192_S8192x256_S1x256_1_0_0_1_n_n.rhsIdx_val_of_single (cr := 0) rfl j q
/-- The right operand's column at an output index is the output's column. -/
theorem ones_rhs_axis1 (j : S1x256.Idx) (q : dot_S1x8192_S8192x256_S1x256_1_0_0_1_n_n.contr.Idx) :
    (dot_S1x8192_S8192x256_S1x256_1_0_0_1_n_n.rhsIdx j q 1).val = (j 1).val := by
  simp [DotDims.rhsIdx, dot_S1x8192_S8192x256_S1x256_1_0_0_1_n_n]; rfl

/-- A row of 8192 ones times an 8192 × 256 matrix, into a zero accumulator: at lane b the sum of the matrix's column b. -/
theorem ones_matmul_apply (R : FVec Ideal S8192x256 .bf16) (b : Fin 256) :
    matmul dot_S1x8192_S8192x256_S1x256_1_0_0_1_n_n none (k0_pay6 (F := Ideal)) R
        (constant (F := Ideal) S1x256 .f32 0x00000000#32) (ix2 (0 : Fin 1) b)
      = ∑ k : Fin 8192, R (ix2 k b) := by
  show FloatOps.matmul dot_S1x8192_S8192x256_S1x256_1_0_0_1_n_n none (k0_pay6 (F := Ideal)) R
        (constant (F := Ideal) S1x256 .f32 0x00000000#32) (ix2 (0 : Fin 1) b) = _
  rw [Ideal.matmul_constant_zero_apply,
    ← Equiv.sum_comp (contrEquiv1 dot_S1x8192_S8192x256_S1x256_1_0_0_1_n_n 8192 rfl rfl).symm]
  refine Finset.sum_congr rfl fun k _ => ?_
  have hk := contrEquiv1_symm_val dot_S1x8192_S8192x256_S1x256_1_0_0_1_n_n 8192 rfl rfl k
  have hl : dot_S1x8192_S8192x256_S1x256_1_0_0_1_n_n.lhsIdx (ix2 (0 : Fin 1) b)
      ((contrEquiv1 dot_S1x8192_S8192x256_S1x256_1_0_0_1_n_n 8192 rfl rfl).symm k) = ix2 (0 : Fin 1) k := by
    funext a; apply Fin.ext
    match a with
    | ⟨0, _⟩ => exact ones_lhs_axis0 _ _
    | ⟨1, _⟩ => exact (ones_lhs_axis1 _ _).trans hk
  have hr : dot_S1x8192_S8192x256_S1x256_1_0_0_1_n_n.rhsIdx (ix2 (0 : Fin 1) b)
      ((contrEquiv1 dot_S1x8192_S8192x256_S1x256_1_0_0_1_n_n 8192 rfl rfl).symm k) = ix2 k b := by
    funext a; apply Fin.ext
    match a with
    | ⟨0, _⟩ => exact (ones_rhs_axis0 _ _).trans hk
    | ⟨1, _⟩ => exact ones_rhs_axis1 _ _
  rw [hl, hr]
  show Ideal.ofBits .bf16 0x3F80#16 * R (ix2 k b) = R (ix2 k b)
  rw [ofBits_one_bf16, one_mul]

/-- The counts a block adds to a channel's row: the column sums of the channel's one-hot matrix. -/
theorem counts_apply (x : Vec Ideal S1x8192x3 .f32) (o : Nat) (h : S8192x3.Slices ![0, o] S8192x1) (c : Fin 3) (hc : c.val = o)
    (b : Fin 256) :
    matmul dot_S1x8192_S8192x256_S1x256_1_0_0_1_n_n none (k0_pay6 (F := Ideal))
        (truncf .bf16 (sitofp (F := Ideal) .f32 (extui 32 (cmpi .eq
          (broadcastTo S8192x256 (shapeCast S8192x1 (extractStridedSlice S8192x1 ![0, o] (k0_pay5 (F := Ideal) x) h) shapeCasts_S8192x1_S8192x1)
            broadcasts_S8192x1_S8192x256) iotaV) natLt_1_32)) bitsLt_bf16_f32)
        (constant (F := Ideal) S1x256 .f32 0x00000000#32) (ix2 (0 : Fin 1) b)
      = blockCount x c b := by
  rw [ones_matmul_apply]
  unfold blockCount
  refine Finset.sum_congr rfl fun k _ => ?_
  exact (oneHot_apply (k0_pay5 (F := Ideal) x) o h c hc k b).trans (by rw [pay5_apply])

theorem pay4_apply (j : S8x256.Idx) : k0_pay4 (F := Ideal) j = 0 := by
  unfold k0_pay4
  rw [shapeCast_self]
  exact Ideal.ofBits_zero_f32

theorem pay7_apply (x : Vec Ideal S1x8192x3 .f32) (prev : Vec Ideal S1x256 .f32) (b : Fin 256) :
    k0_pay7 (F := Ideal) x prev (ix2 (0 : Fin 1) b) = prev (ix2 (0 : Fin 1) b) + blockCount x 0 b := by
  unfold k0_pay7
  rw [shapeCast_self]
  exact congrArg (prev (ix2 (0 : Fin 1) b) + ·) (counts_apply x 0 slices_S8192x3_o0_0_S8192x1 0 rfl b)

theorem pay1_pay8_apply (x : Vec Ideal S1x8192x3 .f32) (prev : Vec Ideal S1x256 .f32) (b : Fin 256) :
    k0_pay1 (F := Ideal) (k0_pay8 (F := Ideal) x prev) (ix2 (0 : Fin 1) b) = prev (ix2 (0 : Fin 1) b) + blockCount x 1 b := by
  unfold k0_pay1 k0_pay8
  rw [shapeCast_self]
  exact congrArg (prev (ix2 (0 : Fin 1) b) + ·) (counts_apply x 1 slices_S8192x3_o0_1_S8192x1 1 rfl b)

theorem pay2_apply (x : Vec Ideal S1x8192x3 .f32) (prev : Vec Ideal S1x256 .f32) (b : Fin 256) :
    k0_pay2 (F := Ideal) (k0_pay5 (F := Ideal) x) iotaV (k0_pay6 (F := Ideal)) prev (ix2 (0 : Fin 1) b)
      = prev (ix2 (0 : Fin 1) b) + blockCount x 2 b := by
  unfold k0_pay2
  rw [shapeCast_self]
  exact congrArg (prev (ix2 (0 : Fin 1) b) + ·) (counts_apply x 2 slices_S8192x3_o0_2_S8192x1 2 rfl b)

theorem pay3_apply (v : Vec Ideal S3x256 .f32) (b : Fin 256) (c : Fin 3) :
    k0_pay3 (F := Ideal) v (ix3 (0 : Fin 1) b c) = v (ix2 c b) := by
  unfold k0_pay3
  rw [shapeCast_ab_1ab_apply, transpose_ix2_apply]

/-- The total of a 256 × 3 array over its 256 rows, read at channel c. -/
theorem rowTotal_apply (v : FVec Ideal S256x3 .f32) (hacc : (0x00000000#32 : BitVec 32) = 0x00000000#32) (c : Fin 3) :
    multiReduction (F := Ideal) .add [0] S3 v 0x00000000#32 reduces_S256x3_S3 (.inl rfl) hacc (ix1 c)
      = ∑ b' : Fin 256, v (ix2 b' c) := by
  refine (Ideal.multiReduction_add_single v 0x00000000#32 reduces_S256x3_S3 (.inl rfl) hacc (ix1 c)).trans ?_
  refine Finset.sum_congr rfl fun k _ => ?_
  refine congrArg v (funext fun a => Fin.ext ?_)
  match a with
  | ⟨0, _⟩ => rfl
  | ⟨1, _⟩ => rfl

theorem k1_pay1_apply (v0 v2 : Vec Ideal S1x256x3 .f32) (b : Fin 256) (c : Fin 3) :
    k1_pay1 (F := Ideal) v0 v2 (ix2 b c)
      = FloatOps.divf (F := Ideal) (φ := .f32) (v0 (ix3 (0 : Fin 1) b c) + v2 (ix3 (0 : Fin 1) b c))
          (∑ b' : Fin 256, (v0 (ix3 (0 : Fin 1) b' c) + v2 (ix3 (0 : Fin 1) b' c))) := by
  have hnum : ∀ r : Fin 256, addf (F := Ideal) (s := S256x3) (φ := .f32) (shapeCast S256x3 v0 shapeCasts_S1x256x3_S256x3)
        (shapeCast S256x3 v2 shapeCasts_S1x256x3_S256x3) (ix2 r c)
      = v0 (ix3 (0 : Fin 1) r c) + v2 (ix3 (0 : Fin 1) r c) := fun r => by
    rw [addf_apply, shapeCast_1ab_ab_apply, shapeCast_1ab_ab_apply]
  have hden : broadcastTo S256x3 (shapeCast S1x3 (multiReduction (F := Ideal) .add [0] S3
        (addf (F := Ideal) (s := S256x3) (φ := .f32) (shapeCast S256x3 v0 shapeCasts_S1x256x3_S256x3) (shapeCast S256x3 v2 shapeCasts_S1x256x3_S256x3))
        0x00000000#32 reduces_S256x3_S3 (.inl rfl) rfl) shapeCasts_S3_S1x3) broadcasts_S1x3_S256x3 (ix2 b c)
      = ∑ b' : Fin 256, (v0 (ix3 (0 : Fin 1) b' c) + v2 (ix3 (0 : Fin 1) b' c)) := by
    rw [broadcastTo_1b_ab_apply, shapeCast_a_1a_apply]
    refine (rowTotal_apply _ rfl c).trans ?_
    exact Finset.sum_congr rfl fun r _ => hnum r
  unfold k1_pay1
  exact congrArg₂ Ideal.div (hnum b) hden

end Cert.KernelIdeal.Hist

end
-- ==== Proof.KI.Value0.lean ====
/-
  What region 0 leaves in the partial histograms, over the extended reals: shard s's block, written back once at the
  shard's last point, holds per bin and channel the number of the shard's 8,388,608 samples of the channel in the bin
  — the running counts of the scratch summed block by block along the shard.
-/
import proofs.«110654_j74637941669897_1_alg».proof.Proof.KI.Launch
import proofs.«110654_j74637941669897_1_alg».proof.Proof.KI.PayloadMath
import proofs.«110654_j74637941669897_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen

/-- How many of shard `s`'s samples of channel `c` fall in bin `b`. -/
def partCount (X : Vec Ideal S2x8388608x3 .f32) (s : Fin 2) (b : Fin 256) (c : Fin 3) : EReal :=
  ∑ r : Fin 8388608, _root_.Hist.ind (_root_.Hist.bin (X (ix3 s r c)) = BitVec.ofNat 32 b.val)

/-- The two shards' partial histograms. -/
def partHist (X : Vec Ideal S2x8388608x3 .f32) : Vec Ideal S2x256x3 .f32 := fun j => partCount X (j 0) (j 1) (j 2)

/-! ## Where the count rows sit in the scratch -/

/-- Row `ch` (one of the three count rows), bin `b` of the scratch. -/
abbrev rowIx (ch : Fin 3) (b : Fin 256) : S8x256.Idx := ix2 (⟨ch.val, by omega⟩ : Fin 8) b

theorem rS0_idx (b : Fin 256) : rS0.idx (ix2 (0 : Fin 1) b) = rowIx 0 b := by
  funext a; apply Fin.ext
  match a with
  | ⟨0, _⟩ => rfl
  | ⟨1, _⟩ => show 0 + 1 * b.val = b.val; omega

theorem rS1_idx (b : Fin 256) : rS1.idx (ix2 (0 : Fin 1) b) = rowIx 1 b := by
  funext a; apply Fin.ext
  match a with
  | ⟨0, _⟩ => rfl
  | ⟨1, _⟩ => show 0 + 1 * b.val = b.val; omega

theorem rS2_idx (b : Fin 256) : rS2.idx (ix2 (0 : Fin 1) b) = rowIx 2 b := by
  funext a; apply Fin.ext
  match a with
  | ⟨0, _⟩ => rfl
  | ⟨1, _⟩ => show 0 + 1 * b.val = b.val; omega

theorem rS012_idx (ch : Fin 3) (b : Fin 256) : rS012.idx (ix2 ch b) = rowIx ch b := by
  funext a; apply Fin.ext
  match a with
  | ⟨0, _⟩ => show 0 + 1 * ch.val = ch.val; omega
  | ⟨1, _⟩ => show 0 + 1 * b.val = b.val; omega

/-- One point adds, to each count row, the block's counts of that row's channel. -/
theorem stepB_apply (x : Vec Ideal S1x8192x3 .f32) (xs : Vec Ideal S8x256 .f32) (ch : Fin 3) (b : Fin 256) :
    stepB x xs (rowIx ch b) = xs (rowIx ch b) + blockCount x ch b := by
  match ch with
  | ⟨0, _⟩ =>
    have h := congrFun (stepB_row0 x xs) (ix2 (0 : Fin 1) b)
    rw [pay7_apply] at h
    have h' : stepB x xs (rS0.idx (ix2 (0 : Fin 1) b)) = xs (rS0.idx (ix2 (0 : Fin 1) b)) + blockCount x 0 b := h
    rw [rS0_idx] at h'
    exact h'
  | ⟨1, _⟩ =>
    have h := congrFun (stepB_row1 x xs) (ix2 (0 : Fin 1) b)
    rw [pay1_pay8_apply] at h
    have h' : stepB x xs (rS1.idx (ix2 (0 : Fin 1) b)) = xs (rS1.idx (ix2 (0 : Fin 1) b)) + blockCount x 1 b := h
    rw [rS1_idx] at h'
    exact h'
  | ⟨2, _⟩ =>
    have h := congrFun (stepB_row2 x xs) (ix2 (0 : Fin 1) b)
    rw [pay2_apply] at h
    have h' : stepB x xs (rS2.idx (ix2 (0 : Fin 1) b)) = xs (rS2.idx (ix2 (0 : Fin 1) b)) + blockCount x 2 b := h
    rw [rS2_idx] at h'
    exact h'

/-! ## A block's samples in the array -/

/-- The input window's block index at a point: the shard, the block within the shard, channel block zero. -/
theorem index0_0 : ∀ t : Fin cfg0.N, win0_0.index t 0 = t.val / 1024 ∧ win0_0.index t 1 = t.val % 1024 ∧ win0_0.index t 2 = 0 :=
  (by decide +kernel : ∀ t : Fin grid0.N, win0_0.index t 0 = t.val / 1024 ∧ win0_0.index t 1 = t.val % 1024 ∧ win0_0.index t 2 = 0)

/-- The output window's block index at a point: the shard, then zeros. -/
theorem index0_1 : ∀ t : Fin cfg0.N, win0_1.index t 0 = t.val / 1024 ∧ win0_1.index t 1 = 0 ∧ win0_1.index t 2 = 0 :=
  (by decide +kernel : ∀ t : Fin grid0.N, win0_1.index t 0 = t.val / 1024 ∧ win0_1.index t 1 = 0 ∧ win0_1.index t 2 = 0)

/-- Sample `r` of shard `s`, channel `ch`, is in bin `b`: one or zero (the shard and the sample as natural numbers,
    read modulo their ranges so that the function is total). -/
def sampleIn (X : Vec Ideal S2x8388608x3 .f32) (ch : Fin 3) (b : Fin 256) (s r : ℕ) : EReal :=
  _root_.Hist.ind (_root_.Hist.bin (X (ix3 (⟨s % 2, Nat.mod_lt _ (by decide)⟩ : Fin 2)
    (⟨r % 8388608, Nat.mod_lt _ (by decide)⟩ : Fin 8388608) ch)) = BitVec.ofNat 32 b.val)

/-- Row `k`, channel `ch` of the block the input window reads at point `t` is sample `i·8192 + k` of shard `s`,
    where `t = s·1024 + i`. -/
theorem iblk0_apply (V : (c : Dev nD) → (b : Ref sig .tc) → Buf (Elt Ideal) ((c : Thread nD τ).loc b)) (c : Dev nD)
    (t : Fin cfg0.N) (k : Fin 8192) (ch : Fin 3) :
    iblk0 (F := Ideal) V c 0 t (ix3 (0 : Fin 1) k ch)
      = V c main_v0 (ix3 (⟨(t.val / 1024) % 2, Nat.mod_lt _ (by decide)⟩ : Fin 2)
          (⟨((t.val % 1024) * 8192 + k.val) % 8388608, Nat.mod_lt _ (by decide)⟩ : Fin 8388608) ch) := by
  have hN : t.val < 2048 := lt_of_lt_of_eq t.isLt (show cfg0.N = 2048 from N_0)
  have hk : k.val < 8192 := k.isLt
  obtain ⟨e0, e1, e2⟩ := index0_0 t
  unfold iblk0
  rw [View.read_apply]
  show V c main_v0 (((cfg0.win 0).blk t).view.emb (ix3 (0 : Fin 1) k ch)) = _
  congr 1
  funext a
  apply Fin.ext
  match a with
  | ⟨0, _⟩ => show win0_0.index t 0 * 1 + 1 * 0 = (t.val / 1024) % 2; rw [e0]; omega
  | ⟨1, _⟩ => show win0_0.index t 1 * 8192 + 1 * k.val = ((t.val % 1024) * 8192 + k.val) % 8388608; rw [e1]; omega
  | ⟨2, _⟩ => show win0_0.index t 2 * 3 + 1 * ch.val = ch.val; rw [e2]; omega

/-- A block's counts, as a sum over its 8192 samples' positions in the shard. -/
theorem blockCount_iblk0 (V : (c : Dev nD) → (b : Ref sig .tc) → Buf (Elt Ideal) ((c : Thread nD τ).loc b)) (c : Dev nD)
    (t : Fin cfg0.N) (ch : Fin 3) (b : Fin 256) :
    blockCount (iblk0 (F := Ideal) V c 0 t) ch b
      = ∑ k ∈ Finset.range 8192, sampleIn (V c main_v0) ch b (t.val / 1024) ((t.val % 1024) * 8192 + k) := by
  rw [Finset.sum_range]
  unfold blockCount sampleIn
  refine Finset.sum_congr rfl fun k _ => ?_
  rw [iblk0_apply]

/-! ## The running counts -/

section running
variable (V : (c : Dev nD) → (b : Ref sig .tc) → Buf (Elt Ideal) ((c : Thread nD τ).loc b)) (c : Dev nD)

/-- After a shard's first block the count rows hold that block's counts. -/
theorem count_first (n : ℕ) (hn : n < cfg0.N) (h0 : n % 1024 = 0) (ch : Fin 3) (b : Fin 256) :
    scrAt (F := Ideal) V c n hn (rowIx ch b)
      = ∑ r ∈ Finset.range ((n % 1024 + 1) * 8192), sampleIn (V c main_v0) ch b (n / 1024) r := by
  have e : scrAt (F := Ideal) V c n hn = stepA (iblk0 V c 0 ⟨n, hn⟩) := scrAt_first V c ⟨n, hn⟩ h0
  rw [e]
  unfold stepA
  rw [stepB_apply, pay4_apply, zero_add, blockCount_iblk0]
  show ∑ k ∈ Finset.range 8192, sampleIn (V c main_v0) ch b (n / 1024) ((n % 1024) * 8192 + k) = _
  rw [h0]
  refine Finset.sum_congr rfl fun k _ => ?_
  rw [Nat.zero_mul, Nat.zero_add]

/-- After a later block they hold what they held before plus that block's counts. -/
theorem count_later (n : ℕ) (hn : n < cfg0.N) (h0 : ¬ n % 1024 = 0) (ch : Fin 3) (b : Fin 256)
    (prev : scrBefore (F := Ideal) V c n (Nat.le_of_lt hn) (rowIx ch b)
      = ∑ r ∈ Finset.range ((n % 1024) * 8192), sampleIn (V c main_v0) ch b (n / 1024) r) :
    scrAt (F := Ideal) V c n hn (rowIx ch b)
      = ∑ r ∈ Finset.range ((n % 1024 + 1) * 8192), sampleIn (V c main_v0) ch b (n / 1024) r := by
  have e : scrAt (F := Ideal) V c n hn = stepB (iblk0 V c 0 ⟨n, hn⟩) (scrBefore V c n (Nat.le_of_lt hn)) :=
    scrAt_later V c ⟨n, hn⟩ h0
  rw [e, stepB_apply, prev, blockCount_iblk0]
  show _ + ∑ k ∈ Finset.range 8192, sampleIn (V c main_v0) ch b (n / 1024) ((n % 1024) * 8192 + k) = _
  rw [Nat.add_mul, Nat.one_mul, Finset.sum_range_add]

/-- The running counts: after the point at position `n`, block `i = n mod 1024` of shard `s = n div 1024`, count row
    `ch` holds at bin `b` the number of the shard's first `(i + 1)·8192` samples of the channel that fall in the bin. -/
theorem running_counts : ∀ (n : ℕ) (hn : n < cfg0.N) (ch : Fin 3) (b : Fin 256),
    scrAt (F := Ideal) V c n hn (rowIx ch b)
      = ∑ r ∈ Finset.range ((n % 1024 + 1) * 8192), sampleIn (V c main_v0) ch b (n / 1024) r
  | 0, hn, ch, b => count_first V c 0 hn rfl ch b
  | n + 1, hn, ch, b => by
    by_cases h0 : (n + 1) % 1024 = 0
    · exact count_first V c (n + 1) hn h0 ch b
    · refine count_later V c (n + 1) hn h0 ch b ?_
      show scrAt (F := Ideal) V c n (Nat.lt_of_succ_lt hn) (rowIx ch b) = _
      rw [running_counts n (Nat.lt_of_succ_lt hn) ch b]
      have e1 : (n + 1) % 1024 = n % 1024 + 1 := by omega
      have e2 : (n + 1) / 1024 = n / 1024 := by omega
      rw [e1, e2]

end running

/-! ## What a shard's last point writes back -/

/-- A shard's count, as a sum over the samples' positions. -/
theorem partCount_eq (X : Vec Ideal S2x8388608x3 .f32) (s : Fin 2) (b : Fin 256) (ch : Fin 3) :
    partCount X s b ch = ∑ r ∈ Finset.range 8388608, sampleIn X ch b s.val r := by
  rw [Finset.sum_range]
  unfold partCount sampleIn
  refine Finset.sum_congr rfl fun r _ => ?_
  have hs : (⟨s.val % 2, Nat.mod_lt _ (by decide)⟩ : Fin 2) = s := Fin.ext (Nat.mod_eq_of_lt s.isLt)
  have hr : (⟨r.val % 8388608, Nat.mod_lt _ (by decide)⟩ : Fin 8388608) = r := Fin.ext (Nat.mod_eq_of_lt r.isLt)
  rw [hs, hr]

/-- The partial histograms at an entry whose coordinates are known. -/
theorem partHist_at (X : Vec Ideal S2x8388608x3 .f32) (i : S2x256x3.Idx) (s : ℕ) (b : Fin 256) (ch : Fin 3)
    (h0 : (i 0).val = s) (h1 : (i 1).val = b.val) (h2 : (i 2).val = ch.val) :
    partHist X i = ∑ r ∈ Finset.range 8388608, sampleIn X ch b s r := by
  have e1 : i 1 = b := Fin.ext h1
  have e2 : i 2 = ch := Fin.ext h2
  subst h0 e1 e2
  exact partCount_eq X (i 0) (i 1) (i 2)

/-- Reading the output window's block of an array: the array at the block's place. -/
theorem read_blk0_1 (G : Vec Ideal S2x256x3 .f32) (t : Fin cfg0.N) (j : ((cfg0.win 1).xblock (grid0.coords t)).Idx) :
    ((cfg0.win 1).blk t).view.read (Elt Ideal) G j = G (((cfg0.win 1).blk t).view.emb j) := rfl

section writeback
variable (V : (c : Dev nD) → (b : Ref sig .tc) → Buf (Elt Ideal) ((c : Thread nD τ).loc b)) (c : Dev nD)

/-- The output block after a shard's last point: the count rows after all 1024 blocks, transposed — at bin `b`,
    channel `ch` the count over all of the shard's 1024·8192 samples. -/
theorem outAt_last (t : Fin cfg0.N) (h1 : t.val % 1024 = 1023) (b : Fin 256) (ch : Fin 3) :
    outAt (F := Ideal) V c t (ix3 (0 : Fin 1) b ch)
      = ∑ r ∈ Finset.range 8388608, sampleIn (V c main_v0) ch b (t.val / 1024) r := by
  have h0 : ¬ t.val % 1024 = 0 := by omega
  unfold outAt
  rw [outC_eq, ← scrAt_later V c t h0, pay3_apply]
  show scrAt V c t.val t.isLt (rS012.idx (ix2 ch b)) = _
  rw [rS012_idx, running_counts, h1]

/-- The block written back at a shard's last point is the shard's block of the partial histograms. -/
theorem flushed0_1 (t : Fin cfg0.N) (hf : (cfg0.win 1).flush t = true) :
    (dat0 (F := Ideal) V c).flushed 1 t = ((cfg0.win 1).blk t).view.read (Elt Ideal) (partHist (V c main_v0)) := by
  have hN : t.val < 2048 := lt_of_lt_of_eq t.isLt (show cfg0.N = 2048 from N_0)
  have h1 : t.val % 1024 = 1023 := (flush0_1 t).mp hf
  obtain ⟨e0, e1, e2⟩ := index0_1 t
  show (cfg0.win 1).cut (grid0.coords t) ((dat0 V c).after 1 t) = _
  rw [after0_1]
  funext j
  rw [read_blk0_1]
  have hj0 : (j 0).val < 1 := (j 0).isLt
  have hj1 : (j 1).val < 256 := (j 1).isLt
  have hj2 : (j 2).val < 3 := (j 2).isLt
  obtain ⟨b, hb⟩ : ∃ b : Fin 256, b.val = (j 1).val := ⟨⟨_, hj1⟩, rfl⟩
  obtain ⟨ch, hch⟩ : ∃ ch : Fin 3, ch.val = (j 2).val := ⟨⟨_, hj2⟩, rfl⟩
  have hX : (cfg0.win 1).xinj (grid0.coords t) j = ix3 (0 : Fin 1) b ch := by
    funext a; apply Fin.ext
    match a with
    | ⟨0, _⟩ => show (j 0).val = 0; omega
    | ⟨1, _⟩ => exact hb.symm
    | ⟨2, _⟩ => exact hch.symm
  show outAt V c t ((cfg0.win 1).xinj (grid0.coords t) j) = _
  rw [hX, outAt_last V c t h1]
  refine (partHist_at (V c main_v0) _ (t.val / 1024) b ch ?_ ?_ ?_).symm
  · show win0_1.index t 0 * 1 + 1 * (j 0).val = t.val / 1024
    rw [e0]; omega
  · show win0_1.index t 1 * 256 + 1 * (j 1).val = b.val
    rw [e1]; omega
  · show win0_1.index t 2 * 3 + 1 * (j 2).val = ch.val
    rw [e2]; omega

/-- Every entry of the partial histograms is in the block of its shard's last point. -/
theorem cover0_1 (i : S2x256x3.Idx) :
    ∃ t : Fin cfg0.N, (cfg0.win 1).flush t = true ∧ i ∈ ((cfg0.win 1).blk t).view.set := by
  have hi0 : (i 0).val < 2 := (i 0).isLt
  have hi1 : (i 1).val < 256 := (i 1).isLt
  have hi2 : (i 2).val < 3 := (i 2).isLt
  obtain ⟨t, ht⟩ : ∃ t : Fin cfg0.N, t.val = (i 0).val * 1024 + 1023 :=
    ⟨⟨(i 0).val * 1024 + 1023, by rw [show cfg0.N = 2048 from N_0]; omega⟩, rfl⟩
  obtain ⟨e0, e1, e2⟩ := index0_1 t
  refine ⟨t, (flush0_1 t).mpr (by rw [ht]; omega), ?_⟩
  show i ∈ ((View.whole main_v1).slice (win0_1.rect t)).set
  rw [View.set_slice_whole, Rect.mem_set_unit]
  intro a
  match a with
  | ⟨0, _⟩ =>
    show win0_1.index t 0 * 1 ≤ (i 0).val ∧ (i 0).val < win0_1.index t 0 * 1 + 1
    rw [e0, ht]; omega
  | ⟨1, _⟩ =>
    show win0_1.index t 1 * 256 ≤ (i 1).val ∧ (i 1).val < win0_1.index t 1 * 256 + 256
    rw [e1]; omega
  | ⟨2, _⟩ =>
    show win0_1.index t 2 * 3 ≤ (i 2).val ∧ (i 2).val < win0_1.index t 2 * 3 + 3
    rw [e2]; omega

end writeback

/-- Region 0's output array after the region, at any entry contents `V`: the partial histograms of its input array. -/
theorem region0_value (V : (c : Dev nD) → (b : Ref sig .tc) → Buf (Elt Ideal) ((c : Thread nD τ).loc b)) (c : Dev nD) :
    (dat0 (F := Ideal) V c).arrAt 1 cfg0.N = partHist (V c main_v0) :=
  (dat0 (F := Ideal) V c).arrAt_eq_of_cover 1 (partHist (V c main_v0)) (fun t hf => flushed0_1 V c t hf)
    (fun i => cover0_1 i)

end Cert.KernelIdeal.Hist

end
-- ==== Proof.KI.Value1.lean ====
/-
  What the program leaves in its result, over the extended reals: region 1 adds the two shards' partial histograms —
  per bin and channel the count over all 16,777,216 samples of the channel — and divides by the channel's total.
-/
import proofs.«110654_j74637941669897_1_alg».proof.Proof.KI.Launch
import proofs.«110654_j74637941669897_1_alg».proof.Proof.KI.PayloadMath
import proofs.«110654_j74637941669897_1_alg».proof.Proof.KI.Value0
import proofs.«110654_j74637941669897_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hist

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a rank-two access, as a constant function. -/
theorem hz1 : (![0, 0] : Fin 2 → Nat) = fun _ => 0 := funext fun a => by fin_cases a <;> rfl

/-- The input window's one block is the whole input array: block index 0 on every axis and unit stride, so the
    block's index (a, b, c) sits at 0·size + 1·(a, b, c) = (a, b, c) of the array. -/
theorem iblk1_eq (V : (c : Dev nD) → (b : Ref sig .tc) → Buf (Elt Ideal) ((c : Thread nD τ).loc b)) (c : Dev nD) (t : Fin cfg1.N) :
    iblk1 (F := Ideal) V c 0 t = V c main_v1 := by
  funext j
  show V c main_v1 (((cfg1.win 0).blk t).view.emb j) = V c main_v1 j
  congr 1
  funext a; apply Fin.ext
  match a with
  | ⟨0, _⟩ => show 0 * 2 + 1 * (j 0).val = (j 0).val; omega
  | ⟨1, _⟩ => show 0 * 256 + 1 * (j 1).val = (j 1).val; omega
  | ⟨2, _⟩ => show 0 * 3 + 1 * (j 2).val = (j 2).val; omega

/-- What the one point writes back is the body's result on the whole input array, read through the output's one
    block — again the whole array, index for index. -/
theorem flushed1_eq (V : (c : Dev nD) → (b : Ref sig .tc) → Buf (Elt Ideal) ((c : Thread nD τ).loc b)) (c : Dev nD) (t : Fin cfg1.N) :
    (dat1 (F := Ideal) V c).flushed 1 t = ((cfg1.win 1).blk t).view.read (Elt Ideal) (out1 (F := Ideal) (V c main_v1)) := by
  show (cfg1.win 1).cut (grid1.coords t) ((dat1 (F := Ideal) V c).after 1 t) = _
  rw [after1_1, iblk1_eq]
  funext j
  show out1 (F := Ideal) (V c main_v1) j = out1 (F := Ideal) (V c main_v1) (((cfg1.win 1).blk t).view.emb j)
  congr 1
  funext a; apply Fin.ext
  match a with
  | ⟨0, _⟩ => show (j 0).val = 0 * 256 + 1 * (j 0).val; omega
  | ⟨1, _⟩ => show (j 1).val = 0 * 3 + 1 * (j 1).val; omega

/-- Every index of the output array lies in the one point's block: on each axis the block spans 0 … size. -/
theorem covered1 (i : S256x3.Idx) : i ∈ ((cfg1.win 1).blk t1_0).view.set := by
  show i ∈ ((View.whole main_v2).slice (win1_1.rect t1_0)).set
  rw [View.set_slice_whole, Rect.mem_set_unit]
  intro a
  match a with
  | ⟨0, _⟩ =>
    have h0 : (i 0).val < 256 := (i 0).isLt
    show 0 * 256 ≤ (i 0).val ∧ (i 0).val < 0 * 256 + 256
    omega
  | ⟨1, _⟩ =>
    have h1 : (i 1).val < 3 := (i 1).isLt
    show 0 * 3 ≤ (i 1).val ∧ (i 1).val < 0 * 3 + 3
    omega

/-- Region 1's output array after the region, at any entry contents `V`: its one store of the whole input array. -/
theorem region1_value (V : (c : Dev nD) → (b : Ref sig .tc) → Buf (Elt Ideal) ((c : Thread nD τ).loc b)) (c : Dev nD) :
    (dat1 (F := Ideal) V c).arrAt 1 cfg1.N = out1 (F := Ideal) (V c main_v1) :=
  (dat1 (F := Ideal) V c).arrAt_eq_of_cover 1 _ (fun t _ => flushed1_eq V c t)
    (fun i => ⟨t1_0, flush1_1 t1_0, covered1 i⟩)

/-- The argument's 50,331,648 numbers are 16,777,216 samples of three channels. -/
theorem hcastPix : S64x512x512x3.ShapeCasts _root_.Hist.SPix := by decide

/-- Shard 0's rows loaded: the array at (0, b, c). -/
theorem ld_rP0 (X : Vec Ideal S2x256x3 .f32) (b : Fin 256) (ch : Fin 3) :
    View.ld X rP0 (ix3 (0 : Fin 1) b ch) = X (ix3 (0 : Fin 2) b ch) := by
  show X (rP0.emb (ix3 (0 : Fin 1) b ch)) = _
  congr 1
  funext a; apply Fin.ext
  match a with
  | ⟨0, _⟩ => rfl
  | ⟨1, _⟩ => show 0 + 1 * b.val = b.val; omega
  | ⟨2, _⟩ => show 0 + 1 * ch.val = ch.val; omega

/-- Shard 1's rows loaded: the array at (1, b, c). -/
theorem ld_rP1 (X : Vec Ideal S2x256x3 .f32) (b : Fin 256) (ch : Fin 3) :
    View.ld X rP1 (ix3 (0 : Fin 1) b ch) = X (ix3 (1 : Fin 2) b ch) := by
  show X (rP1.emb (ix3 (0 : Fin 1) b ch)) = _
  congr 1
  funext a; apply Fin.ext
  match a with
  | ⟨0, _⟩ => rfl
  | ⟨1, _⟩ => show 0 + 1 * b.val = b.val; omega
  | ⟨2, _⟩ => show 0 + 1 * ch.val = ch.val; omega

/-- The body's result at (b, c): the two shards' entries added, over that sum's total along the bins. -/
theorem out1_apply (X : Vec Ideal S2x256x3 .f32) (b : Fin 256) (ch : Fin 3) :
    out1 (F := Ideal) X (ix2 b ch)
      = FloatOps.divf (F := Ideal) (φ := .f32) (X (ix3 (0 : Fin 2) b ch) + X (ix3 (1 : Fin 2) b ch))
          (∑ b' : Fin 256, (X (ix3 (0 : Fin 2) b' ch) + X (ix3 (1 : Fin 2) b' ch))) := by
  unfold out1
  rw [View.canon_unit_zero hz1, k1_pay1_apply]
  exact congrArg₂ _ (congrArg₂ _ (ld_rP0 X b ch) (ld_rP1 X b ch))
    (Finset.sum_congr rfl fun b' _ => congrArg₂ _ (ld_rP0 X b' ch) (ld_rP1 X b' ch))

/-- Sample r of shard s of the argument cut in two shards is sample s·8388608 + r of the argument as rows of three
    channels: both sit at flat position 3·(s·8388608 + r) + c of the argument. -/
theorem pix_apply {α : Type} (A : S64x512x512x3.Idx → α) (s : Fin 2) (r : Fin 8388608) (ch : Fin 3) (n : Fin 16777216)
    (hn : n.val = s.val * 8388608 + r.val) :
    shapeCast S2x8388608x3 A shapeCasts_S64x512x512x3_S2x8388608x3 (ix3 s r ch)
      = shapeCast _root_.Hist.SPix A hcastPix (ix2 n ch) := by
  unfold shapeCast
  congr 1
  apply Shape.reshapeEquiv_eq_of_rowMajor
  rw [Shape.rowMajor_reshapeEquiv, Shape.rowMajor_val_two, Shape.rowMajor_val_three]
  show n.val * 3 + ch.val = (s.val * 8388608 + r.val) * 3 + ch.val
  rw [hn]

/-- The two shards' counts together are the count over all the samples: samples 0 … 8388607 are shard 0's and
    samples 8388608 … 16777215 shard 1's. -/
theorem count_halves (A : S64x512x512x3.Idx → Ideal .f32) (b : Fin 256) (ch : Fin 3) :
    partCount (shapeCast S2x8388608x3 A shapeCasts_S64x512x512x3_S2x8388608x3) 0 b ch
        + partCount (shapeCast S2x8388608x3 A shapeCasts_S64x512x512x3_S2x8388608x3) 1 b ch
      = _root_.Hist.count (shapeCast _root_.Hist.SPix A hcastPix) b ch := by
  unfold partCount _root_.Hist.count
  have e := Fin.sum_univ_add (a := 8388608) (b := 8388608) (fun n : Fin (8388608 + 8388608) =>
    _root_.Hist.ind (_root_.Hist.bin (shapeCast _root_.Hist.SPix A hcastPix (ix2 (n : Fin 16777216) ch)) = BitVec.ofNat 32 b.val))
  refine Eq.trans (congrArg₂ (· + ·) (Finset.sum_congr rfl fun r _ => ?_) (Finset.sum_congr rfl fun r _ => ?_)) e.symm
  · rw [pix_apply A 0 r ch (Fin.castAdd 8388608 r) (by show r.val = 0 * 8388608 + r.val; omega)]
  · rw [pix_apply A 1 r ch (Fin.natAdd 8388608 r) (by show 8388608 + r.val = 1 * 8388608 + r.val; omega)]

/-- The body's result on the partial histograms of the argument cut in two shards is the normalized histogram of the
    argument's samples. -/
theorem out1_partHist (A : S64x512x512x3.Idx → Ideal .f32) :
    out1 (F := Ideal) (partHist (shapeCast S2x8388608x3 A shapeCasts_S64x512x512x3_S2x8388608x3))
      = _root_.Hist.normHist (shapeCast _root_.Hist.SPix A hcastPix) := by
  funext j
  obtain ⟨b, ch, rfl⟩ : ∃ b ch, j = ix2 b ch := ⟨j 0, j 1, eq_ix2 j⟩
  rw [out1_apply]
  show FloatOps.divf (F := Ideal) (φ := .f32)
      (partCount (shapeCast S2x8388608x3 A shapeCasts_S64x512x512x3_S2x8388608x3) 0 b ch
        + partCount (shapeCast S2x8388608x3 A shapeCasts_S64x512x512x3_S2x8388608x3) 1 b ch)
      (∑ b' : Fin 256, (partCount (shapeCast S2x8388608x3 A shapeCasts_S64x512x512x3_S2x8388608x3) 0 b' ch
        + partCount (shapeCast S2x8388608x3 A shapeCasts_S64x512x512x3_S2x8388608x3) 1 b' ch))
    = FloatOps.divf (F := Ideal) (φ := .f32) (_root_.Hist.count (shapeCast _root_.Hist.SPix A hcastPix) b ch)
      (∑ b' : Fin 256, _root_.Hist.count (shapeCast _root_.Hist.SPix A hcastPix) b' ch)
  exact congrArg₂ _ (count_halves A b ch) (Finset.sum_congr rfl fun b' _ => count_halves A b' ch)

/-- The program's result is the normalized histogram of the argument's samples. -/
theorem final_value (m : (ℓ : Loc nD τ sig) → Buf (Elt Ideal) ℓ) (c : Dev nD) :
    (dat1 (F := Ideal) (V2 m) c).arrAt 1 cfg1.N
      = _root_.Hist.normHist (shapeCast _root_.Hist.SPix (m ((c : Thread nD τ).loc main_arg0)) hcastPix) := by
  rw [region1_value, V2_main_v1, region0_value, V1_main_v0]
  exact out1_partHist _

end Cert.KernelIdeal.Hist

end
-- ==== Proof.RefValue.lean ====
/-
  The reference computes the normalized histogram: its scatter of ones at (bin + 256·channel) over all samples is,
  per bin and channel, the count of the channel's samples in the bin; the rest is the layout and the quotient.
-/
import proofs.«110654_j74637941669897_1_alg».proof.Proof.Gen.ReferenceIdeal.Run
import proofs.«110654_j74637941669897_1_alg».proof.Proof.Gen.ReferenceIdeal.Read
import proofs.«110654_j74637941669897_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen

open Cert.ReferenceIdeal.Read

/-- The scatter's dimension numbers: one index word per update, no window. -/
abbrev D := scatter_S768_S50331648x1_S50331648_n_0_0_1

/-- No operand axis is a window axis, so the window coordinate is zero. -/
theorem window_eq (j : S50331648.Idx) (a : Fin 1) : D.window j a = 0 := by
  have ha : a = 0 := Subsingleton.elim _ _
  subst ha
  unfold ScatterDims.window
  rw [dif_neg]
  decide

/-- The start on the one operand axis is update `j`'s index word, read signed. -/
theorem start_eq (j : S50331648.Idx) (idx : IVec S50331648x1 32) (a : Fin 1) :
    D.start j idx a = (idx (ix2 (j 0) 0)).toInt := by
  have ha : a = 0 := Subsingleton.elim _ _
  subst ha
  unfold ScatterDims.start
  rw [dif_pos (by decide)]
  congr 2
  funext b
  match b with
  | ⟨0, _⟩ => rfl
  | ⟨1, _⟩ => rfl

/-- An update lands on element `i` exactly when its index word, read signed, is `i`'s coordinate. -/
theorem resultIdx_iff (j : S50331648.Idx) (idx : IVec S50331648x1 32) (i : S768.Idx) :
    D.resultIdx? j idx = some i ↔ (idx (ix2 (j 0) 0)).toInt = ((i 0).val : Int) := by
  unfold ScatterDims.resultIdx?
  have hi : (i 0).val < 768 := (i 0).isLt
  constructor
  · intro h
    split at h
    · rename_i hh
      have := congrArg (fun f => ((f 0 : Fin 768).val : Int)) (Option.some.inj h)
      simp only [start_eq, window_eq] at this hh
      have h0 := hh 0
      omega
    · exact absurd h (by simp)
  · intro h
    have hall : ∀ a : Fin 1, 0 ≤ D.start j idx a + (D.window j a : Int) ∧ D.start j idx a + (D.window j a : Int) < ((S768.size a : Nat) : Int) := by
      intro a
      have ha : a = 0 := Subsingleton.elim _ _
      subst ha
      rw [start_eq, window_eq, h]
      show (0:Int) ≤ _ ∧ _ < ((768 : Nat) : Int)
      omega
    rw [dif_pos hall]
    congr 1
    funext a
    have ha : a = 0 := Subsingleton.elim _ _
    subst ha
    apply Fin.ext
    show (D.start j idx 0 + (D.window j 0 : Int)).toNat = (i 0).val
    rw [start_eq, window_eq, h]
    omega

/-- A word clamped to 0..255 as a signed word is at most 255 as a natural number. -/
theorem clamp_le (z : BitVec 32) : (IntOp.minsi 255#32 (IntOp.maxsi 0#32 z)).toNat ≤ 255 := by
  have e0 : (0#32 : BitVec 32).toInt = 0 := by decide
  have e255 : (255#32 : BitVec 32).toInt = 255 := by decide
  have hz : z.toInt = (z.toNat : Int) ∨ z.toInt < 0 := by
    rw [BitVec.toInt_eq_toNat_cond]
    split_ifs <;> omega
  unfold IntOp.minsi IntOp.maxsi
  split_ifs with h1 h2 h2
  · decide
  · decide
  · decide
  · simp only [BitVec.slt, decide_eq_true_eq, e0, e255, not_lt] at h1 h2
    omega

/-- A bin below 256 plus 256 times a channel below 3 is below 768: it is not negative as a signed word, the wrap
    keeps it, and its signed value is the sum. -/
theorem index_word (w : BitVec 32) (hw : w.toNat ≤ 255) (c' : Fin 3) :
    (Scalar.select (IntOp.cmpi .slt (IntOp.addi w (IntOp.muli (BitVec.ofNat 32 c'.val) 256#32)) 0#32)
      (IntOp.addi (IntOp.addi w (IntOp.muli (BitVec.ofNat 32 c'.val) 256#32)) 768#32)
      (IntOp.addi w (IntOp.muli (BitVec.ofNat 32 c'.val) 256#32))).toInt = ((w.toNat + 256 * c'.val : Nat) : Int) := by
  have hc : c'.val < 3 := c'.isLt
  have ht : (IntOp.addi w (IntOp.muli (BitVec.ofNat 32 c'.val) 256#32)).toNat = w.toNat + 256 * c'.val := by
    unfold IntOp.addi IntOp.muli
    rw [BitVec.toNat_add, BitVec.toNat_mul, BitVec.toNat_ofNat]
    show (w.toNat + c'.val % 2 ^ 32 * 256 % 2 ^ 32) % 2 ^ 32 = _
    omega
  have hI : (IntOp.addi w (IntOp.muli (BitVec.ofNat 32 c'.val) 256#32)).toInt = ((w.toNat + 256 * c'.val : Nat) : Int) := by
    rw [BitVec.toInt_eq_toNat_cond, ht]
    rw [if_pos (by omega)]
  have hs : IntOp.cmpi .slt (IntOp.addi w (IntOp.muli (BitVec.ofNat 32 c'.val) 256#32)) 0#32 = 0#1 := by
    show BitVec.ofBool (BitVec.slt _ _) = 0#1
    rw [BitVec.slt, hI]
    have : ¬ (((w.toNat + 256 * c'.val : Nat) : Int) < (0#32 : BitVec 32).toInt) := by
      show ¬ (_ < (0 : Int)); omega
    rw [decide_eq_false this]; rfl
  rw [hs, select_zero, hI]

/-- The pattern 0x3F800000 is the extended real one. -/
theorem ofBits_one_f32 : Ideal.ofBits .f32 0x3F800000#32 = 1 := by
  simp [Ideal.ofBits, Ideal.ieee, -EReal.coe_mul]; norm_num

/-- A bin is at most 255. -/
theorem bin_le (x : Ideal .f32) : (_root_.Hist.bin x).toNat ≤ 255 := clamp_le _

/-- The reference's scale, floor, convert and clip of a sample is the sample's bin. -/
theorem v5_eq (x0 : (⟨S64x512x512x3, .f32⟩ : BufTy).Contents (Elt Ideal)) (i : S16777216x3.Idx) :
    val_main_v5 (F := Ideal) x0 i = _root_.Hist.bin (val_main_v0 (F := Ideal) x0 i) := by
  rw [val_main_v5_apply, val_main_call0_v4_apply, val_main_call0_v3_apply, val_main_c_0_apply,
    val_main_call0_v2_apply, val_main_call0_v1_apply, val_main_call0_v0_apply, val_main_c_apply,
    val_main_v4_apply, val_main_v3_apply, val_main_v2_apply, val_main_v1_apply, val_main_cst_apply]
  rfl

/-- The channel offset: 256 times the channel. -/
theorem v10_eq (i : S16777216x3.Idx) :
    val_main_v10 (F := Ideal) i = IntOp.muli (BitVec.ofNat 32 (i 1).val) 256#32 := by
  rw [val_main_v10_apply, val_main_v9_apply, val_main_v7_apply, val_main_v8_apply, val_main_v6_apply, val_main_c_1_apply]

/-- Flat positions are the rows of three: position 3n + c is channel c of sample n. -/
def flatEquiv : Fin 16777216 × Fin 3 ≃ S50331648.Idx where
  toFun p := ix1 ⟨p.1.val * 3 + p.2.val, by have := p.1.isLt; have := p.2.isLt; omega⟩
  invFun j := (⟨(j 0).val / 3, by have h : (j 0).val < 50331648 := (j 0).isLt; omega⟩, ⟨(j 0).val % 3, by omega⟩)
  left_inv p := by
    have h1 := p.1.isLt; have h2 := p.2.isLt
    apply Prod.ext <;> apply Fin.ext
    · show (p.1.val * 3 + p.2.val) / 3 = p.1.val; omega
    · show (p.1.val * 3 + p.2.val) % 3 = p.2.val; omega
  right_inv j := by
    funext a
    match a with
    | ⟨0, _⟩ => exact Fin.ext (by show (j 0).val / 3 * 3 + (j 0).val % 3 = (j 0).val; omega)

/-- The index word at flat position 3n + c, read signed, is the bin of sample n's channel c plus 256·c. -/
theorem idx_read (x0 : (⟨S64x512x512x3, .f32⟩ : BufTy).Contents (Elt Ideal)) (n : Fin 16777216) (c' : Fin 3) :
    (val_main_v19 (F := Ideal) x0 (ix2 (flatEquiv (n, c') 0) 0)).toInt
      = (((_root_.Hist.bin (val_main_v0 (F := Ideal) x0 (ix2 n c'))).toNat + 256 * c'.val : Nat) : Int) := by
  have hn := n.isLt; have hc := c'.isLt
  have hi : idx_main_v12 (idx_main_v19 (ix2 (flatEquiv (n, c') 0) 0)) = ix2 n c' := by
    funext a
    match a with
    | ⟨0, _⟩ => exact Fin.ext (by show (n.val * 3 + c'.val) / 3 = n.val; omega)
    | ⟨1, _⟩ => exact Fin.ext (by show (n.val * 3 + c'.val) % 3 = c'.val; omega)
  rw [val_main_v19_apply, val_main_v18_apply, val_main_v15_apply, val_main_v17_apply, val_main_v14_apply,
    val_main_v16_apply, val_main_c_3_apply, val_main_c_4_apply, val_main_v12_apply, val_main_v11_apply, v5_eq, v10_eq, hi]
  exact index_word _ (bin_le _) c'

/-- A word is the natural number b below 256 exactly when it is b's word. -/
theorem toNat_eq_iff (w : BitVec 32) (b : Fin 256) : w.toNat = b.val ↔ w = BitVec.ofNat 32 b.val := by
  have hb := b.isLt
  constructor
  · intro h; apply BitVec.eq_of_toNat_eq; rw [BitVec.toNat_ofNat, h]; omega
  · intro h; rw [h, BitVec.toNat_ofNat]; omega

/-- The scatter read at an element: the operand there plus the updates, over rows of three, whose index word is the
    element's coordinate. -/
theorem scatter_read (x : S768.Idx → EReal) (idx : IVec S50331648x1 32) (upd : S50331648.Idx → EReal) (i : S768.Idx) :
    Host.scatterAdd (F := Ideal) (φ := .f32) D x idx upd i
      = x i + ∑ n : Fin 16777216, ∑ c' : Fin 3,
          if (idx (ix2 (flatEquiv (n, c') 0) 0)).toInt = ((i 0).val : Int) then upd (flatEquiv (n, c')) else 0 := by
  show Ideal.hostScatterAdd D x idx upd i = _
  unfold Ideal.hostScatterAdd
  refine congrArg (x i + ·) ?_
  rw [Finset.sum_filter]
  rw [← Fintype.sum_prod_type (f := fun p : Fin 16777216 × Fin 3 =>
    if (idx (ix2 (flatEquiv p 0) 0)).toInt = ((i 0).val : Int) then upd (flatEquiv p) else 0)]
  refine ((Equiv.sum_comp flatEquiv _).symm).trans ?_
  refine Finset.sum_congr rfl fun p _ => ?_
  exact if_congr (resultIdx_iff _ idx i) rfl rfl

/-- Over one row of three, only the channel's own position can carry the index c·256 + b, and it does exactly when
    the sample's bin is b. -/
theorem row_sum (x0 : (⟨S64x512x512x3, .f32⟩ : BufTy).Contents (Elt Ideal)) (n : Fin 16777216) (c : Fin 3) (b : Fin 256)
    (m : Nat) (hm : m = c.val * 256 + b.val) :
    (∑ c' : Fin 3, if (val_main_v19 (F := Ideal) x0 (ix2 (flatEquiv (n, c') 0) 0)).toInt = (m : Int)
        then val_main_v20 (F := Ideal) (flatEquiv (n, c')) else 0)
      = _root_.Hist.ind (_root_.Hist.bin (val_main_v0 (F := Ideal) x0 (ix2 n c)) = BitVec.ofNat 32 b.val) := by
  have hb := b.isLt
  subst hm
  rw [Finset.sum_eq_single c]
  · unfold _root_.Hist.ind
    rw [val_main_v20_apply, val_main_cst_5_apply, Ideal.ofBits_def, ofBits_one_f32]
    refine if_congr ?_ rfl rfl
    rw [idx_read, ← toNat_eq_iff]
    have := bin_le (val_main_v0 (F := Ideal) x0 (ix2 n c))
    constructor <;> intro hh <;> omega
  · intro c' _ hne
    rw [if_neg]
    rw [idx_read]
    have := bin_le (val_main_v0 (F := Ideal) x0 (ix2 n c'))
    have : c'.val ≠ c.val := fun e => hne (Fin.ext e)
    omega
  · intro hc; exact absurd (Finset.mem_univ c) hc

/-- The scatter operation, by definition. -/
theorem v21_def (x0 : (⟨S64x512x512x3, .f32⟩ : BufTy).Contents (Elt Ideal)) :
    val_main_v21 (F := Ideal) x0
      = Host.scatterAdd (F := Ideal) (φ := .f32) D (val_main_v13 (F := Ideal)) (val_main_v19 (F := Ideal) x0) (val_main_v20 (F := Ideal)) := rfl

/-- The scatter of ones: element c·256 + b is the number of channel c's samples in bin b. -/
theorem v21_eq (x0 : (⟨S64x512x512x3, .f32⟩ : BufTy).Contents (Elt Ideal)) (i : S768.Idx) (c : Fin 3) (b : Fin 256)
    (h : (i 0).val = c.val * 256 + b.val) :
    val_main_v21 (F := Ideal) x0 i = _root_.Hist.count (val_main_v0 (F := Ideal) x0) b c := by
  rw [v21_def]
  refine (scatter_read _ _ _ i).trans ?_
  rw [val_main_v13_apply, val_main_cst_2_apply, Ideal.ofBits_def, Ideal.ofBits_zero_f32, zero_add, _root_.Hist.count]
  refine Finset.sum_congr rfl fun n _ => ?_
  exact row_sum x0 n c b _ h

/-- The counts laid out bins by channels. -/
theorem v23_eq (x0 : (⟨S64x512x512x3, .f32⟩ : BufTy).Contents (Elt Ideal)) (i : S256x3.Idx) :
    val_main_v23 (F := Ideal) x0 i = _root_.Hist.count (val_main_v0 (F := Ideal) x0) (i 0) (i 1) := by
  rw [val_main_v23_apply, val_main_v22_apply]
  exact v21_eq x0 _ (i 1) (i 0) rfl

/-- The reference's result, as a function of its argument array, is the normalized histogram of the samples. -/
theorem result_eq (x0 : (⟨S64x512x512x3, .f32⟩ : BufTy).Contents (Elt Ideal)) :
    Cert.ReferenceIdeal.Read.val_main_v27 (F := Ideal) x0
      = _root_.Hist.normHist (shapeCast _root_.Hist.SPix x0 shapeCasts_S64x512x512x3_S16777216x3) := by
  funext i
  rw [val_main_v27_apply, val_main_v26_apply, val_main_v25_apply, val_main_v24_apply, val_main_cst_6_apply]
  simp only [v23_eq]
  rw [Ideal.ofBits_def, Ideal.ofBits_zero_f32, zero_add]
  rfl

end Cert.ReferenceIdeal.RefValue
end
-- ==== Proof.lean ====
/-
  The certificate. The kernel computes a normalized histogram: each of 2 shards × 1024 blocks adds, per channel, the
  block's per-bin counts (a one-hot matrix summed by a product with a row of ones) to three running rows kept in scratch;
  a shard's last block writes the rows out transposed; a second kernel adds the two shards and divides by each channel's
  total. The reference counts by a scatter of ones at (bin + 256·channel). Over the extended reals both are the same
  function of the samples — per bin and channel the number of the channel's samples whose bin it is, over the channel's
  total — because a count is a sum of zeros and ones in any order and grouping. The three frames come from the runs; the
  idealization rewrote nothing.
-/
import proofs.«110654_j74637941669897_1_alg».proof.Defs
import proofs.«110654_j74637941669897_1_alg».proof.Proof.Gen.Kernel
import proofs.«110654_j74637941669897_1_alg».proof.Proof.Gen.KernelIdeal
import proofs.«110654_j74637941669897_1_alg».proof.Proof.Gen.ReferenceIdeal
import proofs.«110654_j74637941669897_1_alg».proof.Proof.Gen.Pre_finite_inputs
import proofs.«110654_j74637941669897_1_alg».proof.Proof.Gen.ReferenceIdeal.Run
import proofs.«110654_j74637941669897_1_alg».proof.Proof.Gen.ReferenceIdeal.Read
import proofs.«110654_j74637941669897_1_alg».proof.Proof.K.Launch
import proofs.«110654_j74637941669897_1_alg».proof.Proof.KI.Launch
import proofs.«110654_j74637941669897_1_alg».proof.Proof.KI.Value1
import proofs.«110654_j74637941669897_1_alg».proof.Proof.RefValue

noncomputable section

namespace Cert.Proof

open Idealize.ShloMosaic Idealize.ShloMosaic.TcCoe Idealize.SL.Sem

/-- The word-level kernel runs to the end, faults nowhere and leaves its argument as launched. -/
theorem frame_k : Cert.frame_Kernel (hKernel := Cert.Kernel.Gen.facts) (hPre_finite_inputs := Cert.Pre_finite_inputs.Gen.facts) :=
  fun m ρ _ => Cert.Kernel.Hist.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hist.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the samples both programs end with the normalized histogram of the samples. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => _root_.Hist.normHist (shapeCast _root_.Hist.SPix
      (m ((c.tc : Thread Cert.KernelIdeal.nD Cert.KernelIdeal.τ).loc Cert.KernelIdeal.main_arg0)) Cert.KernelIdeal.Hist.hcastPix), ?_, ?_⟩
  · exact (θ_run Cert.KernelIdeal.defs _ _).mono
      (fun _ h c => ⟨(h c).1.trans (Cert.KernelIdeal.Hist.final_value m c), (h c).2⟩)
      (Cert.KernelIdeal.Hist.result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
